-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S19660800x8 : Shape := ⟨2, ![19660800, 8]⟩
abbrev S65536x4 : Shape := ⟨2, ![65536, 4]⟩
abbrev S65536 : Shape := ⟨1, ![65536]⟩
abbrev S_ : Shape := ⟨0, ![]⟩

class Facts : Prop where
  bcast_S_S19660800x8 : S_.BroadcastsInDim S19660800x8 (![] : Fin 0 → Fin S19660800x8.rank)
  reducesTo_S19660800x8_S_d0_1 : S19660800x8.ReducesTo [0, 1] S_
  h_S_ : 0 < S_.numel
  bcast_S_S65536x4 : S_.BroadcastsInDim S65536x4 (![] : Fin 0 → Fin S65536x4.rank)
  reducesTo_S65536x4_S_d0_1 : S65536x4.ReducesTo [0, 1] S_
  bcast_S_S65536 : S_.BroadcastsInDim S65536 (![] : Fin 0 → Fin S65536.rank)
  reducesTo_S65536_S_d0 : S65536.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S19660800x8 .f32) (main_arg1 : FVec F S65536x4 .f32) (main_arg2 : IVec S65536 32) : IVec S_ 1 :=
  let main_v0 : FVec F S19660800x8 .f32 := Host.absf main_arg0
  let main_cst : FVec F S_ .f32 := constant S_ .f32 0x7F800000#32
  let main_v1 : FVec F S19660800x8 .f32 := broadcastInDim S19660800x8 ![] bcast_S_S19660800x8 main_cst
  let main_v2 : IVec S19660800x8 1 := cmpf .olt main_v0 main_v1
  let main_c : IVec S_ 1 := constantI S_ 1 1#1
  let main_v3 : IVec S_ 1 := (fun x v => Host.reduce IntOp.andi x v reducesTo_S19660800x8_S_d0_1 h_S_) main_v2 main_c
  let main_v4 : FVec F S65536x4 .f32 := Host.absf main_arg1
  let main_cst_0 : FVec F S_ .f32 := constant S_ .f32 0x7F800000#32
  let main_v5 : FVec F S65536x4 .f32 := broadcastInDim S65536x4 ![] bcast_S_S65536x4 main_cst_0
  let main_v6 : IVec S65536x4 1 := cmpf .olt main_v4 main_v5
  let main_c_1 : IVec S_ 1 := constantI S_ 1 1#1
  let main_v7 : IVec S_ 1 := (fun x v => Host.reduce IntOp.andi x v reducesTo_S65536x4_S_d0_1 h_S_) main_v6 main_c_1
  let main_v8 : IVec S_ 1 := andi main_v3 main_v7
  let main_c_2 : IVec S_ 32 := constantI S_ 32 0#32
  let main_v9 : IVec S65536 32 := broadcastInDim S65536 ![] bcast_S_S65536 main_c_2
  let main_v10 : IVec S65536 1 := cmpi .sge main_arg2 main_v9
  let main_c_3 : IVec S_ 1 := constantI S_ 1 1#1
  let main_v11 : IVec S_ 1 := (fun x v => Host.reduce IntOp.andi x v reducesTo_S65536_S_d0 h_S_) main_v10 main_c_3
  let main_v12 : IVec S_ 1 := andi main_v8 main_v11
  let main_c_4 : IVec S_ 32 := constantI S_ 32 300#32
  let main_v13 : IVec S65536 32 := broadcastInDim S65536 ![] bcast_S_S65536 main_c_4
  let main_v14 : IVec S65536 1 := cmpi .slt main_arg2 main_v13
  let main_c_5 : IVec S_ 1 := constantI S_ 1 1#1
  let main_v15 : IVec S_ 1 := (fun x v => Host.reduce IntOp.andi x v reducesTo_S65536_S_d0 h_S_) main_v14 main_c_5
  fn_part1 (F := F) main_v12 main_v15
-- ==== Kernel.lean ====
abbrev S19660800x8 : Shape := ⟨2, ![19660800, 8]⟩
abbrev S65536x4 : Shape := ⟨2, ![65536, 4]⟩
abbrev S65536 : Shape := ⟨1, ![65536]⟩
abbrev S65536x2400 : Shape := ⟨2, ![65536, 2400]⟩
abbrev S65536x1 : Shape := ⟨2, ![65536, 1]⟩
abbrev S2x1x1 : Shape := ⟨3, ![2, 1, 1]⟩
abbrev S512x2400 : Shape := ⟨2, ![512, 2400]⟩
abbrev S512x4 : Shape := ⟨2, ![512, 4]⟩
abbrev S512x1 : Shape := ⟨2, ![512, 1]⟩
abbrev S1x1x1 : Shape := ⟨3, ![1, 1, 1]⟩
abbrev S512 : Shape := ⟨1, ![512]⟩
abbrev S1 : Shape := ⟨1, ![1]⟩
abbrev S1x1 : Shape := ⟨2, ![1, 1]⟩
abbrev S_ : Shape := ⟨0, ![]⟩

abbrev nBuf : Space → Nat
  | .hbm => 10
  | .vmem => 9
  | .smem => 0
  | _ => 0

abbrev bufTy : (tb : Table) → Fin (tcTables nBuf tb) → BufTy
  | .hbm, ⟨0, _⟩ => ⟨S19660800x8, .f32⟩
  | .hbm, ⟨1, _⟩ => ⟨S65536x4, .f32⟩
  | .hbm, ⟨2, _⟩ => ⟨S65536, .i32⟩
  | .hbm, ⟨3, _⟩ => ⟨S65536x2400, .f32⟩
  | .hbm, ⟨4, _⟩ => ⟨S65536x1, .i32⟩
  | .hbm, ⟨5, _⟩ => ⟨S2x1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x2400, .f32⟩
  | .local _ .vmem, ⟨1, _⟩ => ⟨S512x2400, .f32⟩
  | .local _ .vmem, ⟨2, _⟩ => ⟨S512x4, .f32⟩
  | .local _ .vmem, ⟨3, _⟩ => ⟨S512x4, .f32⟩
  | .local _ .vmem, ⟨4, _⟩ => ⟨S512x1, .i32⟩
  | .local _ .vmem, ⟨5, _⟩ => ⟨S512x1, .i32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | _, _ => ⟨S19660800x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v65 : BitVec 1 := Scalar.cmpi .eq arg1 c63_i32
  let v66 : BitVec 32 := Scalar.extui v65
  let c0_i32_23 : BitVec 32 := 0#32
  let v67 : BitVec 1 := Scalar.cmpi .ne v66 c0_i32_23
  v67

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S19660800x8_S65536x2400 : S19660800x8.ShapeCasts S65536x2400
  shapeCasts_S65536_S65536x1 : S65536.ShapeCasts S65536x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S512x1_S512x1_0_0 : ∀ a, (![0, 0] : Fin 2 → Nat) a + S512x1.size a ≤ S512x1.size a
  h_S512x1 : 0 < S512x1.numel
  shapeCasts_S512x1_S512 : S512x1.ShapeCasts S512
  iota_S512x2400_d1_w32 : S512x2400.Iotas .tc 32 [1]
  shapeCasts_S512_S512x1 : S512.ShapeCasts S512x1
  broadcasts_S512x1_S512x2400 : S512x1.Broadcasts S512x2400
  inb_S512x2400_S512x2400_0_0 : ∀ a, (![0, 0] : Fin 2 → Nat) a + S512x2400.size a ≤ S512x2400.size a
  h_S512x2400 : 0 < S512x2400.numel
  shapeCasts_S512x2400_S512x2400 : S512x2400.ShapeCasts S512x2400
  inb_S512x4_S512x1_0_0 : ∀ a, (![0, 0] : Fin 2 → Nat) a + S512x1.size a ≤ S512x4.size a
  shapeCasts_S512x1_S512x1 : S512x1.ShapeCasts S512x1
  inb_S512x4_S512x1_0_1 : ∀ a, (![0, 1] : Fin 2 → Nat) a + S512x1.size a ≤ S512x4.size a
  inb_S512x4_S512x1_0_2 : ∀ a, (![0, 2] : Fin 2 → Nat) a + S512x1.size a ≤ S512x4.size a
  inb_S512x4_S512x1_0_3 : ∀ a, (![0, 3] : Fin 2 → Nat) a + S512x1.size a ≤ S512x4.size a
  reduces_S512x2400_S512 : S512x2400.Reduces [1] S512
  reduces_S512x1_S1 : S512x1.Reduces [0] S1
  shapeCasts_S1_S1x1 : S1.ShapeCasts S1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2400.size a ≤ S65536x2400.size a
  hwx0_0 : ∀ i : grid0.Coords, EltTy.bits .f32 = 32 ∨ (Rect.block (s := S65536x2400) S512x2400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4.size a ≤ S65536x4.size a
  hwx0_1 : ∀ i : grid0.Coords, EltTy.bits .f32 = 32 ∨ (Rect.block (s := S65536x4) S512x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S65536x1.size a
  hwx0_2 : ∀ i : grid0.Coords, EltTy.bits .i32 = 32 ∨ (Rect.block (s := S65536x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

abbrev win0_0 : Pipeline.Window sig grid0 :=
  Pipeline.Window.ofSpec (Memref.whole main_v0) S512x2400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S19660800x8 : Shape := ⟨2, ![19660800, 8]⟩
abbrev S65536x4 : Shape := ⟨2, ![65536, 4]⟩
abbrev S65536 : Shape := ⟨1, ![65536]⟩
abbrev S_ : Shape := ⟨0, ![]⟩
abbrev S65536x1 : Shape := ⟨2, ![65536, 1]⟩
abbrev S65536x2 : Shape := ⟨2, ![65536, 2]⟩
abbrev S262144 : Shape := ⟨1, ![262144]⟩

abbrev nBuf : Space → Nat
  | .hbm => 32
  | .vmem => 0
  | .smem => 0
  | _ => 0

abbrev bufTy : (tb : Table) → Fin (tcTables nBuf tb) → BufTy
  | .hbm, ⟨0, _⟩ => ⟨S19660800x8, .f32⟩
  | .hbm, ⟨1, _⟩ => ⟨S65536x4, .f32⟩
  | .hbm, ⟨2, _⟩ => ⟨S65536, .i32⟩
  | .hbm, ⟨3, _⟩ => ⟨S65536, .i32⟩
  | .hbm, ⟨4, _⟩ => ⟨S_, .i32⟩
  | .hbm, ⟨5, _⟩ => ⟨S65536, .i32⟩
  | .hbm, ⟨6, _⟩ => ⟨S65536, .i32⟩
  | .hbm, ⟨7, _⟩ => ⟨S65536, .i32⟩
  | .hbm, ⟨8, _⟩ => ⟨S_, .i32⟩
  | .hbm, ⟨9, _⟩ => ⟨S65536, .i32⟩
  | .hbm, ⟨10, _⟩ => ⟨S65536, .i1⟩
  | .hbm, ⟨11, _⟩ => ⟨S_, .i32⟩
  | .hbm, ⟨12, _⟩ => ⟨S65536, .i32⟩
  | .hbm, ⟨13, _⟩ => ⟨S65536, .i32⟩
  | .hbm, ⟨14, _⟩ => ⟨S65536, .i32⟩
  | .hbm, ⟨15, _⟩ => ⟨S65536x1, .i32⟩
  | .hbm, ⟨16, _⟩ => ⟨S_, .i32⟩
  | .hbm, ⟨17, _⟩ => ⟨S65536x1, .i32⟩
  | .hbm, ⟨18, _⟩ => ⟨S65536x2, .i32⟩
  | .hbm, ⟨19, _⟩ => ⟨S65536x4, .f32⟩
  | .hbm, ⟨20, _⟩ => ⟨S65536x4, .f32⟩
  | .hbm, ⟨21, _⟩ => ⟨S262144, .f32⟩
  | .hbm, ⟨22, _⟩ => ⟨S262144, .f32⟩
  | .hbm, ⟨23, _⟩ => ⟨S_, .f32⟩
  | .hbm, ⟨24, _⟩ => ⟨S262144, .f32⟩
  | .hbm, ⟨25, _⟩ => ⟨S262144, .i1⟩
  | .hbm, ⟨26, _⟩ => ⟨S262144, .f32⟩
  | .hbm, ⟨27, _⟩ => ⟨S262144, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S19660800x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  bcast_S_S65536x1 : S_.BroadcastsInDim S65536x1 (![] : Fin 0 → Fin S65536x1.rank)
  concatenates_S65536x1_S65536x1_S65536x2_d1 : Shape.Concatenates [S65536x1, S65536x1] S65536x2 1
  shapeCasts_S65536x4_S262144 : S65536x4.ShapeCasts S262144
  bcast_S_S262144 : S_.BroadcastsInDim S262144 (![] : Fin 0 → Fin S262144.rank)
  reducesTo_S262144_S_d0 : S262144.ReducesTo [0] S_
  h_S_ : 0 < S_.numel
  gather_S19660800x8_S65536x2_S65536x4_1_0_n_n_01_1_14_wf : GatherDims.WF S19660800x8 S65536x2 S65536x4 [1] [0] [] [0, 1] [] 1 ![1, 4]

variable [Facts₀]

def gather_S19660800x8_S65536x2_S65536x4_1_0_n_n_01_1_14 : GatherDims S19660800x8 S65536x2 S65536x4 where
  offsetDims := [1]
  collapsedSliceDims := [0]
  operandBatchingDims := []
  startIndicesBatchingDims := []
  startIndexMap := [0, 1]
  indexVectorDim := 1
  sliceSizes := ![1, 4]
  wf := gather_S19660800x8_S65536x2_S65536x4_1_0_n_n_01_1_14_wf

class Facts : Prop extends Facts₀ where

variable [Facts]
-- ==== Proof.Pieces.lean ====
/-
  What one grid point leaves behind, read as values.

  The kernel keeps a one-element accumulator across the 64 steps of each core. At every point its body
  stores, into the accumulator, the accumulator's contents plus the masked sum of the point's 512×2400
  block (`step`); at a core's first step it first resets the accumulator to zero, and at a core's last
  step it copies the accumulator into the output's block. The lemmas below say exactly that of the
  contents each case of the body leaves in the accumulator and in the output block.
-/
import proofs.«425943_j71459665871443_3_alg».proof.Proof.Gen.KernelIdeal.Frame
import Idealize.ShloMosaic.Lib.Pipeline.Value

set_option maxRecDepth 16384

noncomputable section

namespace Cert.KernelIdeal.Acc

open Idealize.ShloMosaic Idealize.ShloMosaic.TcCoe Idealize.ShloMosaic.Tactic
open Idealize.SL Idealize.SL.Sem
open Cert.KernelIdeal Cert.KernelIdeal.Gen

variable {F : FTy → Type} [FloatOps F]

theorem hz3 : (![0, 0, 0] : Fin S1x1x1.rank → Nat) = fun _ => 0 := by
  funext a; fin_cases a <;> rfl

theorem hz2 : (![0, 0] : Fin 2 → Nat) = fun _ => 0 := by
  funext a; fin_cases a <;> rfl

/-- Column `k` of a 512×4 block of `gt_boxes`, as the body loads it: a 512×1 vector. -/
abbrev gcol0 (x1 : Vec F S512x4 .f32) : Vec F S512x1 .f32 := View.ld x1 (Rect.unit ![0, 0] ![512, 1] inb_S512x4_S512x1_0_0)
abbrev gcol1 (x1 : Vec F S512x4 .f32) : Vec F S512x1 .f32 := View.ld x1 (Rect.unit ![0, 1] ![512, 1] inb_S512x4_S512x1_0_1)
abbrev gcol2 (x1 : Vec F S512x4 .f32) : Vec F S512x1 .f32 := View.ld x1 (Rect.unit ![0, 2] ![512, 1] inb_S512x4_S512x1_0_2)
abbrev gcol3 (x1 : Vec F S512x4 .f32) : Vec F S512x1 .f32 := View.ld x1 (Rect.unit ![0, 3] ![512, 1] inb_S512x4_S512x1_0_3)

/-- The accumulator after one point: its contents `xs` before, plus the masked sum of the point's blocks
    (`x0` of `output`, `x1` of `gt_boxes`, `x2` of `central_pos`). -/
def step (x0 : Vec F S512x2400 .f32) (x1 : Vec F S512x4 .f32) (x2 : Vec F S512x1 .i32) (xs : Vec F S1x1x1 .f32) :
    FVec F S1x1x1 .f32 :=
  k0_pay1 (k0_pay3 x2) (k0_pay4 x0) k0_pay5 (k0_pay6 (gcol0 x1)) (k0_pay7 (gcol1 x1)) (k0_pay8 (gcol2 x1))
    (k0_pay9 (gcol3 x1)) k0_pay10 (5#32) xs

/-- The zero the reset stores. -/
abbrev zero : FVec F S1x1x1 .f32 := k0_pay2

/-- A middle step leaves the accumulator one step further. -/
theorem acc_B (c : Dev nD) (i : grid0.Coords) (arg2 : Memref sig .tc .vmem S512x2400 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S1x1x1 .f32) (harg5 : arg5.IsWhole) (arg6 : Memref sig .tc .vmem S1x1x1 .f32) (harg6 : arg6.IsWhole) (hc0 : ¬cond0_0 i) (hc1 : ¬cond0_1 i)
    (x0 : Vec F S512x2400 .f32) (x1 : Vec F S512x4 .f32) (x2 : Vec F S512x1 .i32) (xs0 : Vec F S1x1x1 .f32) :
    sout0_B_0 c i arg2 harg2 arg3 harg3 arg4 harg4 arg5 harg5 arg6 harg6 hc0 hc1 x0 x1 x2 xs0 = step x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz3]
  simp only [View.readAt_eq_ld, harg2.read_unread, harg3.read_unread, harg4.read_unread, harg6.read_unread,
    View.ld_unit_zero (S := S1x1x1) hz3, View.ld_unit_zero (S := S512x2400) hz2, View.ld_unit_zero (S := S512x1) hz2]
  rfl

/-- A core's last step leaves the accumulator one step further, -/
theorem acc_C (c : Dev nD) (i : grid0.Coords) (arg2 : Memref sig .tc .vmem S512x2400 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S1x1x1 .f32) (harg5 : arg5.IsWhole) (arg6 : Memref sig .tc .vmem S1x1x1 .f32) (harg6 : arg6.IsWhole) (hc0 : ¬cond0_0 i) (hc1 : cond0_1 i)
    (x0 : Vec F S512x2400 .f32) (x1 : Vec F S512x4 .f32) (x2 : Vec F S512x1 .i32) (xs0 : Vec F S1x1x1 .f32) :
    sout0_C_0 c i arg2 harg2 arg3 harg3 arg4 harg4 arg5 harg5 arg6 harg6 hc0 hc1 x0 x1 x2 xs0 = step x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz3]
  simp only [View.readAt_eq_ld, harg2.read_unread, harg3.read_unread, harg4.read_unread, harg6.read_unread,
    View.ld_unit_zero (S := S1x1x1) hz3, View.ld_unit_zero (S := S512x2400) hz2, View.ld_unit_zero (S := S512x1) hz2]
  rfl

/-- and copies it into the output's block. -/
theorem out_C (c : Dev nD) (i : grid0.Coords) (arg2 : Memref sig .tc .vmem S512x2400 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S1x1x1 .f32) (harg5 : arg5.IsWhole) (arg6 : Memref sig .tc .vmem S1x1x1 .f32) (harg6 : arg6.IsWhole) (hc0 : ¬cond0_0 i) (hc1 : cond0_1 i)
    (x0 : Vec F S512x2400 .f32) (x1 : Vec F S512x4 .f32) (x2 : Vec F S512x1 .i32) (xs0 : Vec F S1x1x1 .f32) :
    out0_C_3 c i arg2 harg2 arg3 harg3 arg4 harg4 arg5 harg5 arg6 harg6 hc0 hc1 x0 x1 x2 xs0 = step x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3, View.readCov_unit_zero (S := S1x1x1) _ hz3]
  simp only [View.readAt_eq_ld, harg2.read_unread, harg3.read_unread, harg4.read_unread, harg6.read_unread,
    View.ld_unit_zero (S := S1x1x1) hz3, View.ld_unit_zero (S := S512x2400) hz2, View.ld_unit_zero (S := S512x1) hz2]
  rfl

/-- A core's first step resets the accumulator and then steps it: it leaves one step from zero. -/
theorem acc_A (c : Dev nD) (i : grid0.Coords) (arg2 : Memref sig .tc .vmem S512x2400 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S1x1x1 .f32) (harg5 : arg5.IsWhole) (arg6 : Memref sig .tc .vmem S1x1x1 .f32) (harg6 : arg6.IsWhole) (hc0 : cond0_0 i) (hc1 : ¬cond0_1 i)
    (x0 : Vec F S512x2400 .f32) (x1 : Vec F S512x4 .f32) (x2 : Vec F S512x1 .i32) :
    sout0_A_0 c i arg2 harg2 arg3 harg3 arg4 harg4 arg5 harg5 arg6 harg6 hc0 hc1 x0 x1 x2 = step x0 x1 x2 zero := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread,
    View.ld_unit_zero (S := S512x2400) hz2, View.ld_unit_zero (S := S512x1) hz2]
  rfl

end Cert.KernelIdeal.Acc

end
-- ==== Proof.MaskSum.lean ====
/-
  WORD-LEVEL WINDOW MASK AND ITS ROW SUM.

  A row has 2400 = 300 · 8 columns.  For a row position p (0 ≤ p < 300) the window of the row is the four
  columns 8p+4, 8p+5, 8p+6, 8p+7.  This file proves three facts about the 32-bit word arithmetic that
  selects that window:

  * the range mask "0 ≤ j − (8p+4) < 4", computed on signed 32-bit words, is one exactly on the four
    columns of the window (inWin_eq_one_iff);
  * a row sum whose terms are masked to zero outside the window is the sum of the four window terms
    (sum_inWin);
  * the chain of four selects on the low three bits of the column number pairs column 8q+4+k with
    coordinate k of a 4-vector (pick_window).

  All words involved are small non-negative numbers (p < 300, j < 2400), so every intermediate value reads,
  signed or unsigned, as the integer it looks like; only the difference j − (8p+4) may be negative, and it
  is read through the signed value.
-/
import Idealize.ShloMosaic.PureOps.Float
import Idealize.ShloMosaic.Lib.WordArith
import Mathlib.Algebra.BigOperators.Fin
import Mathlib.Algebra.BigOperators.Group.Finset.Basic

noncomputable section

open Idealize.ShloMosaic
open Idealize.ShloMosaic.WordArith
open scoped BigOperators

namespace Cert.MaskSum

/-- The first selected column of a row whose position is `p`: `8·p + 4`, as the kernel's word arithmetic spells it. -/
def base (p : BitVec 32) : BitVec 32 := IntOp.addi (IntOp.muli p 8#32) 4#32

/-- The range mask at column `j`: `0 ≤ j − base p < 4` on signed words. -/
def inWin (p : BitVec 32) (j : Nat) : BitVec 1 :=
  IntOp.andi (IntOp.cmpi .sge (IntOp.subi (BitVec.ofNat 32 j) (base p)) 0#32)
             (IntOp.cmpi .slt (IntOp.subi (BitVec.ofNat 32 j) (base p)) 4#32)

/-! ## The signed readings of the words -/

/-- A word below 2³¹ reads signed as its natural value. -/
theorem toInt_of_small (p : BitVec 32) (hp : p.toNat < 300) : p.toInt = (p.toNat : Int) :=
  BitVec.toInt_eq_toNat_of_lt (by omega)

/-- The word 8·p + 4 reads signed as the integer 8·p + 4 when p < 300. -/
theorem toInt_base (p : BitVec 32) (hp : p.toNat < 300) : (base p).toInt = 8 * (p.toNat : Int) + 4 := by
  have hP := toInt_of_small p hp
  have h8 : (8#32 : BitVec 32).toInt = 8 := by decide
  have h4 : (4#32 : BitVec 32).toInt = 4 := by decide
  have hm : (p * 8#32).toInt = p.toInt * (8#32 : BitVec 32).toInt :=
    toInt_mul_of_bounds p 8#32 (by rw [hP, h8]; omega) (by rw [hP, h8]; omega)
  have ha : (p * 8#32 + 4#32).toInt = (p * 8#32).toInt + (4#32 : BitVec 32).toInt :=
    toInt_add_of_bounds (p * 8#32) 4#32 (by rw [hm, hP, h8, h4]; omega) (by rw [hm, hP, h8, h4]; omega)
  show (p * 8#32 + 4#32).toInt = _
  rw [ha, hm, hP, h8, h4]; omega

/-- The word j − (8·p + 4) reads signed as the integer j − (8·p + 4) when p < 300 and j < 2400. -/
theorem toInt_sub_base (p : BitVec 32) (hp : p.toNat < 300) (j : Nat) (hj : j < 2400) :
    (IntOp.subi (BitVec.ofNat 32 j) (base p)).toInt = (j : Int) - (8 * (p.toNat : Int) + 4) := by
  have hJ : (BitVec.ofNat 32 j).toInt = (j : Int) := toInt_ofNat_small j (by omega)
  have hB := toInt_base p hp
  show (BitVec.ofNat 32 j - base p).toInt = _
  rw [toInt_sub_of_bounds _ _ (by rw [hJ, hB]; omega) (by rw [hJ, hB]; omega), hJ, hB]

/-! ## The mask -/

/-- The range mask is one exactly on the four columns 8p+4 .. 8p+7. -/
theorem inWin_eq_one_iff (p : BitVec 32) (hp : p.toNat < 300) (j : Nat) (hj : j < 2400) :
    inWin p j = 1#1 ↔ 8 * p.toNat + 4 ≤ j ∧ j < 8 * p.toNat + 8 := by
  have hd := toInt_sub_base p hp j hj
  have h0 : (0#32 : BitVec 32).toInt = 0 := by decide
  have h4 : (4#32 : BitVec 32).toInt = 4 := by decide
  unfold inWin
  simp only [IntOp.cmpi, andi_ofBool, ofBool_eq_one_iff, Bool.and_eq_true]
  rw [BitVec.sle_iff_toInt_le, BitVec.slt_iff_toInt_lt, hd, h0, h4]
  omega

/-! ## The masked row sum -/

/-- Column k of the window of position P, as a column of the row. -/
def winCol (P : Nat) (hP : P < 300) (k : Fin 4) : Fin 2400 := ⟨8 * P + 4 + k.val, by omega⟩

/-- Distinct window coordinates are distinct columns. -/
theorem winCol_injective (P : Nat) (hP : P < 300) : Function.Injective (winCol P hP) := by
  intro a b h
  have := congrArg Fin.val h
  simp only [winCol] at this
  exact Fin.ext (by omega)

/-- The columns between 8P+4 and 8P+7 are exactly the four window columns. -/
theorem filter_window_eq_map (P : Nat) (hP : P < 300) :
    (Finset.univ.filter fun j : Fin 2400 => 8 * P + 4 ≤ j.val ∧ j.val < 8 * P + 8)
      = Finset.univ.map ⟨winCol P hP, winCol_injective P hP⟩ := by
  ext j
  simp only [Finset.mem_filter, Finset.mem_univ, true_and, Finset.mem_map, Function.Embedding.coeFn_mk]
  constructor
  · rintro ⟨h1, h2⟩
    exact ⟨⟨j.val - (8 * P + 4), by omega⟩, Fin.ext (by simp only [winCol]; omega)⟩
  · rintro ⟨k, rfl⟩
    simp only [winCol]
    omega

/-- A row sum masked to the window is the sum of the four window terms. -/
theorem sum_inWin {M : Type} [AddCommMonoid M] (p : BitVec 32) (hp : p.toNat < 300) (f : Fin 2400 → M) :
    ∑ j : Fin 2400, Scalar.select (inWin p j.val) (f j) 0 = ∑ k : Fin 4, f ⟨8 * p.toNat + 4 + k.val, by omega⟩ := by
  have hsel : ∀ j : Fin 2400, Scalar.select (inWin p j.val) (f j) 0
      = if (8 * p.toNat + 4 ≤ j.val ∧ j.val < 8 * p.toNat + 8) then f j else 0 := by
    intro j
    have hiff : inWin p j.val = 1 ↔ 8 * p.toNat + 4 ≤ j.val ∧ j.val < 8 * p.toNat + 8 :=
      inWin_eq_one_iff p hp j.val j.isLt
    unfold Scalar.select
    by_cases h : 8 * p.toNat + 4 ≤ j.val ∧ j.val < 8 * p.toNat + 8
    · rw [if_pos h, if_pos (hiff.mpr h)]
    · rw [if_neg h, if_neg (fun hc => h (hiff.mp hc))]
  rw [Finset.sum_congr rfl (fun j _ => hsel j), ← Finset.sum_filter, filter_window_eq_map p.toNat hp,
    Finset.sum_map]
  rfl

/-! ## The select chain on the low three bits -/

/-- The coordinate column `j` is paired with, by the low three bits of `j`. -/
def pick {α : Type} (j : Nat) (g0 g1 g2 g3 z : α) : α :=
  Scalar.select (IntOp.cmpi .eq (IntOp.andi (BitVec.ofNat 32 j) 7#32) 4#32) g0
    (Scalar.select (IntOp.cmpi .eq (IntOp.andi (BitVec.ofNat 32 j) 7#32) 5#32) g1
      (Scalar.select (IntOp.cmpi .eq (IntOp.andi (BitVec.ofNat 32 j) 7#32) 6#32) g2
        (Scalar.select (IntOp.cmpi .eq (IntOp.andi (BitVec.ofNat 32 j) 7#32) 7#32) g3 z)))

/-- The low three bits of column 8q+4+k, as a word, are 4+k. -/
theorem low3_window (q : Nat) (hq : q < 300) (k : Nat) (hk : k < 4) :
    IntOp.andi (BitVec.ofNat 32 (8 * q + 4 + k)) 7#32 = BitVec.ofNat 32 (4 + k) := by
  apply BitVec.eq_of_toNat_eq
  show (BitVec.ofNat 32 (8 * q + 4 + k) &&& 7#32).toNat = _
  have h7 : (7#32 : BitVec 32).toNat = 2 ^ 3 - 1 := by decide
  rw [BitVec.toNat_and, h7, Nat.and_two_pow_sub_one_eq_mod, BitVec.toNat_ofNat, BitVec.toNat_ofNat]
  omega

/-- The select chain at column 8q+4+k picks coordinate k. -/
theorem pick_window {α : Type} (q : Nat) (hq : q < 300) (k : Fin 4) (g : Fin 4 → α) (z : α) :
    pick (8 * q + 4 + k.val) (g 0) (g 1) (g 2) (g 3) z = g k := by
  unfold pick
  rw [low3_window q hq k.val k.isLt]
  fin_cases k <;> rfl

end Cert.MaskSum
-- ==== Proof.Loss.lean ====
/-
  The quantity both programs compute, as one function of the three argument arrays.

  `output` holds, for each of the 65536 images, 300 proposals of 8 numbers: row `300·b + p` is
  proposal `p` of image `b`, and its columns 4..7 are the predicted box. `central_pos b` names one
  proposal of image `b`, and `gt_boxes b` is the box it is compared with. With `d` the difference
  of a predicted and a true coordinate, one entry costs `d²` where `|d| < 3` and `|d|` elsewhere;
  the loss is the sum of the 4·65536 entries' costs divided by their number, 262144.
-/
import Idealize.ShloMosaic.PureOps.Ideal
import Idealize.ShloMosaic.Lib.ValueIdx

noncomputable section

namespace Cert.Loss

open Idealize.ShloMosaic Idealize.ShloMosaic.ValueIdx
open scoped BigOperators

abbrev SOut : Shape := ⟨2, ![19660800, 8]⟩
abbrev SGt : Shape := ⟨2, ![65536, 4]⟩
abbrev SPos : Shape := ⟨1, ![65536]⟩
abbrev S0 : Shape := ⟨0, ![]⟩

/-- One entry's cost: with `d = x - g`, `d · d` where `|d| < 3`, else `|d|` — spelt with the float
    operations of any instance, so that both programs' pointwise chains are this term on the nose. -/
def term {F : FTy → Type} [FloatOps F] (x g : F .f32) : F .f32 :=
  Scalar.select (FloatOps.cmpf .olt (FloatOps.absf (FloatOps.subf x g)) (FloatOps.ofBits .f32 0x40400000#32))
    (FloatOps.mulf (FloatOps.subf x g) (FloatOps.subf x g)) (FloatOps.absf (FloatOps.subf x g))

/-- The row of `output` that holds proposal `p` of image `b` (for `p` below 300 this is `300·b + p`;
    the remainder only makes the definition total). -/
def row (b : Fin 65536) (p : BitVec 32) : Fin 19660800 :=
  ⟨(300 * b.val + p.toNat) % 19660800, Nat.mod_lt _ (by norm_num)⟩

/-- The column of `output` that holds box coordinate `k`. -/
def col (k : Fin 4) : Fin 8 := ⟨4 + k.val, by omega⟩

/-- The sum of all entries' costs, image by image and coordinate by coordinate. -/
def total (out : FVec Ideal SOut .f32) (gt : FVec Ideal SGt .f32) (pos : IVec SPos 32) : EReal :=
  ∑ b : Fin 65536, ∑ k : Fin 4, term (F := Ideal) (out (ix2 (row b (pos (ix1 b))) (col k))) (gt (ix2 b k))

/-- A sum started from the zero word and divided by the entry count 262144: the last two host
    operations of either program. -/
def mean (T : EReal) : FVec Ideal S0 .f32 :=
  fun _ => FloatOps.hostDivf (F := Ideal) (φ := .f32) (Ideal.ofBits .f32 0x00000000#32 + T) (Ideal.ofBits .f32 0x48800000#32)

/-- The loss as a function of the arguments. -/
def loss (out : FVec Ideal SOut .f32) (gt : FVec Ideal SGt .f32) (pos : IVec SPos 32) : FVec Ideal S0 .f32 :=
  mean (total out gt pos)

/-- The positions are proposals of their images: each lies in `[0, 300)` as a signed word. -/
def InRange (pos : IVec SPos 32) : Prop := ∀ b : Fin 65536, 0 ≤ (pos (ix1 b)).toInt ∧ (pos (ix1 b)).toInt < 300

theorem InRange.toNat_lt {pos : IVec SPos 32} (h : InRange pos) (b : Fin 65536) : (pos (ix1 b)).toNat < 300 := by
  have h0 := (h b).1
  have h1 := (h b).2
  have := BitVec.toInt_eq_toNat_cond (pos (ix1 b))
  have hlt := (pos (ix1 b)).isLt
  split at this <;> omega

theorem InRange.toInt_eq {pos : IVec SPos 32} (h : InRange pos) (b : Fin 65536) :
    (pos (ix1 b)).toInt = ((pos (ix1 b)).toNat : Int) := by
  have h0 := (h b).1
  have h1 := (h b).2
  have := BitVec.toInt_eq_toNat_cond (pos (ix1 b))
  have hlt := (pos (ix1 b)).isLt
  split at this <;> omega

/-- Under the range the row needs no remainder. -/
theorem row_val {pos : IVec SPos 32} (h : InRange pos) (b : Fin 65536) :
    (row b (pos (ix1 b))).val = 300 * b.val + (pos (ix1 b)).toNat := by
  have := h.toNat_lt b
  have := b.isLt
  unfold row
  exact Nat.mod_eq_of_lt (by omega)

end Cert.Loss

end
-- ==== Proof.StepValue.lean ====
/-
  One point's step, at the extended reals: the accumulator's one entry grows by the sum, over the 512 rows
  of the point's blocks and the 2400 columns of a row, of the entry cost masked to the row's window.

  In row `r` the body compares every column number `q` with the row's window `8·p + 4 .. 8·p + 7`
  (`p` the row's position word), pairs column `q` with the coordinate of `gt_boxes` its low three bits
  name, takes the entry cost of the difference, zeroes it outside the window, and sums: first along the
  columns, then along the rows.
-/
import proofs.«425943_j71459665871443_3_alg».proof.Proof.Pieces
import proofs.«425943_j71459665871443_3_alg».proof.Proof.MaskSum
import proofs.«425943_j71459665871443_3_alg».proof.Proof.Loss
import Idealize.ShloMosaic.PureOps.Ideal.Laws
import Idealize.ShloMosaic.Lib.ValueIdx

set_option maxRecDepth 16384

noncomputable section

namespace Cert.KernelIdeal.Acc

open Idealize.ShloMosaic Idealize.ShloMosaic.ValueIdx
open Cert.KernelIdeal Cert.KernelIdeal.Gen
open scoped BigOperators

/-! ## Layout operations of the body, read at an index -/

section Layout
variable {α : Type}

/-- A column vector broadcast along the row reads its row's entry. -/
theorem bcast_col (v : S512x1.Idx → α) (h : S512x1.Broadcasts S512x2400) (r : Fin 512) (q : Fin 2400) :
    broadcastTo S512x2400 v h (ix2 r q) = v (ix2 r 0) :=
  broadcastTo_apply v h (ix2 r q) (ix2 r 0) (fun a => by
    match a with
    | ⟨0, _⟩ => rfl
    | ⟨1, _⟩ => rfl)

/-- A vector of 512 entries viewed as a column. -/
theorem cast_col (w : S512.Idx → α) (h : S512.ShapeCasts S512x1) (r : Fin 512) :
    shapeCast S512x1 w h (ix2 r 0) = w (ix1 r) :=
  shapeCast_apply w h (ix2 r 0) (ix1 r) (by
    rw [Shape.rowMajor_val_two, Shape.rowMajor_val_one]; show r.val = r.val * 1 + 0; omega)

/-- A column viewed as a vector of 512 entries. -/
theorem cast_row (x : S512x1.Idx → α) (h : S512x1.ShapeCasts S512) (r : Fin 512) :
    shapeCast S512 x h (ix1 r) = x (ix2 r 0) :=
  shapeCast_apply x h (ix1 r) (ix2 r 0) (by
    rw [Shape.rowMajor_val_two, Shape.rowMajor_val_one]; show r.val * 1 + 0 = r.val; omega)

/-- Between shapes of one entry every cast reads that entry. -/
theorem cast_unit {s t : Shape} (hs : s.numel = 1) (ht : t.numel = 1) (x : s.Idx → α) (h : s.ShapeCasts t)
    (j : t.Idx) (k : s.Idx) : shapeCast t x h j = x k :=
  shapeCast_apply x h j k (by
    have h1 := (s.rowMajor k).isLt
    have h2 := (t.rowMajor j).isLt
    omega)

end Layout

/-! ## The body's payloads, read at row `r` and column `q` -/

section Payloads
variable {F : FTy → Type} [FloatOps F]

/-- The column number, as the body's iota spells it. -/
theorem iota_apply (h : S512x2400.Iotas .tc 32 [1]) (r : Fin 512) (q : Fin 2400) :
    iota .tc S512x2400 32 [1] h (ix2 r q) = BitVec.ofNat 32 q.val :=
  iota_single_apply .tc S512x2400 32 1 h (ix2 r q)

/-- The range mask of row `r` at column `q`. -/
theorem mask_apply (x2 : Vec F S512x1 .i32) (r : Fin 512) (q : Fin 2400) :
    k0_pay3 x2 (ix2 r q) = Cert.MaskSum.inWin (x2 (ix2 r 0)) q.val := by
  unfold k0_pay3 Cert.MaskSum.inWin Cert.MaskSum.base
  dsimp only
  show IntOp.andi (IntOp.cmpi .sge (IntOp.subi (iota .tc S512x2400 32 [1] _ (ix2 r q)) (broadcastTo S512x2400 _ _ (ix2 r q))) 0#32)
      (IntOp.cmpi .slt (IntOp.subi (iota .tc S512x2400 32 [1] _ (ix2 r q)) (broadcastTo S512x2400 _ _ (ix2 r q))) 4#32) = _
  rw [iota_apply, bcast_col, cast_col]
  show IntOp.andi (IntOp.cmpi .sge (IntOp.subi _ (IntOp.addi (IntOp.muli (shapeCast S512 x2 _ (ix1 r)) 8#32) 4#32)) 0#32)
      (IntOp.cmpi .slt (IntOp.subi _ (IntOp.addi (IntOp.muli (shapeCast S512 x2 _ (ix1 r)) 8#32) 4#32)) 4#32) = _
  rw [cast_row]

/-- The low three bits of the column number. -/
theorem low3_apply (r : Fin 512) (q : Fin 2400) :
    (k0_pay5 : IVec S512x2400 32) (ix2 r q) = IntOp.andi (BitVec.ofNat 32 q.val) 7#32 := by
  unfold k0_pay5
  dsimp only
  show IntOp.andi (iota .tc S512x2400 32 [1] _ (ix2 r q)) 7#32 = _
  rw [iota_apply]

/-- A loaded column of `gt_boxes`' block, broadcast along the row, reads the block at its row and that column. -/
theorem gcol0_apply (x1 : Vec F S512x4 .f32) (r : Fin 512) (q : Fin 2400) :
    k0_pay6 (gcol0 x1) (ix2 r q) = x1 (ix2 r 0) := by
  unfold k0_pay6
  rw [bcast_col, shapeCast_self]
  refine congrArg x1 (funext fun a => Fin.ext ?_)
  match a with
  | ⟨0, _⟩ => show 0 + 1 * r.val = r.val; omega
  | ⟨1, _⟩ => show 0 + 1 * 0 = 0; omega
theorem gcol1_apply (x1 : Vec F S512x4 .f32) (r : Fin 512) (q : Fin 2400) :
    k0_pay7 (gcol1 x1) (ix2 r q) = x1 (ix2 r 1) := by
  unfold k0_pay7
  rw [bcast_col, shapeCast_self]
  refine congrArg x1 (funext fun a => Fin.ext ?_)
  match a with
  | ⟨0, _⟩ => show 0 + 1 * r.val = r.val; omega
  | ⟨1, _⟩ => show 1 + 1 * 0 = 1; omega
theorem gcol2_apply (x1 : Vec F S512x4 .f32) (r : Fin 512) (q : Fin 2400) :
    k0_pay8 (gcol2 x1) (ix2 r q) = x1 (ix2 r 2) := by
  unfold k0_pay8
  rw [bcast_col, shapeCast_self]
  refine congrArg x1 (funext fun a => Fin.ext ?_)
  match a with
  | ⟨0, _⟩ => show 0 + 1 * r.val = r.val; omega
  | ⟨1, _⟩ => show 2 + 1 * 0 = 2; omega
theorem gcol3_apply (x1 : Vec F S512x4 .f32) (r : Fin 512) (q : Fin 2400) :
    k0_pay9 (gcol3 x1) (ix2 r q) = x1 (ix2 r 3) := by
  unfold k0_pay9
  rw [bcast_col, shapeCast_self]
  refine congrArg x1 (funext fun a => Fin.ext ?_)
  match a with
  | ⟨0, _⟩ => show 0 + 1 * r.val = r.val; omega
  | ⟨1, _⟩ => show 3 + 1 * 0 = 3; omega

/-- The loaded block of `output` is the block. -/
theorem xblk_eq (x0 : Vec F S512x2400 .f32) : k0_pay4 x0 = x0 := by
  unfold k0_pay4
  dsimp only
  rw [shapeCast_self]

end Payloads

/-! ## The step at the extended reals -/

/-- What column `q` of row `r` contributes: inside the row's window the entry cost of `output`'s entry
    against the coordinate of `gt_boxes` the column is paired with, zero outside it. -/
def cell (x0 : Vec Ideal S512x2400 .f32) (x1 : Vec Ideal S512x4 .f32) (x2 : Vec Ideal S512x1 .i32)
    (r : Fin 512) (q : Fin 2400) : EReal :=
  Scalar.select (Cert.MaskSum.inWin (x2 (ix2 r 0)) q.val)
    (Cert.Loss.term (F := Ideal) (x0 (ix2 r q))
      (Cert.MaskSum.pick q.val (x1 (ix2 r 0)) (x1 (ix2 r 1)) (x1 (ix2 r 2)) (x1 (ix2 r 3))
        (Ideal.ofBits .f32 0x00000000#32)))
    (Ideal.ofBits .f32 0x00000000#32)

/-- The masked cost array the body reduces, at row `r` and column `q`. -/
theorem masked_apply (x0 : Vec Ideal S512x2400 .f32) (x1 : Vec Ideal S512x4 .f32) (x2 : Vec Ideal S512x1 .i32)
    (r : Fin 512) (q : Fin 2400) (G : FVec Ideal S512x2400 .f32)
    (hG : G (ix2 r q) = Cert.MaskSum.pick q.val (x1 (ix2 r 0)) (x1 (ix2 r 1)) (x1 (ix2 r 2)) (x1 (ix2 r 3))
        (Ideal.ofBits .f32 0x00000000#32)) :
    (select (k0_pay3 (F := Ideal) x2)
        (select (cmpf .olt (absf (subf (k0_pay4 (F := Ideal) x0) G)) (broadcast S512x2400 (Scalar.ofBits (F := Ideal) .f32 0x40400000#32)))
          (mulf (subf (k0_pay4 (F := Ideal) x0) G) (subf (k0_pay4 (F := Ideal) x0) G)) (absf (subf (k0_pay4 (F := Ideal) x0) G)))
        (broadcast S512x2400 (Scalar.ofBits (F := Ideal) .f32 0x00000000#32))) (ix2 r q) = cell x0 x1 x2 r q := by
  rw [xblk_eq]
  show Scalar.select (k0_pay3 (F := Ideal) x2 (ix2 r q))
      (Cert.Loss.term (F := Ideal) (x0 (ix2 r q)) (G (ix2 r q))) (Ideal.ofBits .f32 0x00000000#32) = _
  rw [mask_apply, hG]
  rfl

/-- The coordinate of `gt_boxes` the body pairs column `q` of row `r` with. -/
theorem paired_apply (x1 : Vec Ideal S512x4 .f32) (r : Fin 512) (q : Fin 2400) :
    (select (k0_pay10) (k0_pay6 (F := Ideal) (gcol0 x1))
      (select (cmpi .eq k0_pay5 (broadcast S512x2400 (5#32 : BitVec 32))) (k0_pay7 (F := Ideal) (gcol1 x1))
        (select (cmpi .eq k0_pay5 (broadcast S512x2400 (6#32 : BitVec 32))) (k0_pay8 (F := Ideal) (gcol2 x1))
          (select (cmpi .eq k0_pay5 (broadcast S512x2400 (7#32 : BitVec 32))) (k0_pay9 (F := Ideal) (gcol3 x1))
            (broadcast S512x2400 (Scalar.ofBits (F := Ideal) .f32 0x00000000#32)))))) (ix2 r q)
      = Cert.MaskSum.pick q.val (x1 (ix2 r 0)) (x1 (ix2 r 1)) (x1 (ix2 r 2)) (x1 (ix2 r 3)) (Ideal.ofBits .f32 0x00000000#32) := by
  show Scalar.select (IntOp.cmpi .eq ((k0_pay5 : IVec S512x2400 32) (ix2 r q)) 4#32) (k0_pay6 (F := Ideal) (gcol0 x1) (ix2 r q))
      (Scalar.select (IntOp.cmpi .eq ((k0_pay5 : IVec S512x2400 32) (ix2 r q)) 5#32) (k0_pay7 (F := Ideal) (gcol1 x1) (ix2 r q))
        (Scalar.select (IntOp.cmpi .eq ((k0_pay5 : IVec S512x2400 32) (ix2 r q)) 6#32) (k0_pay8 (F := Ideal) (gcol2 x1) (ix2 r q))
          (Scalar.select (IntOp.cmpi .eq ((k0_pay5 : IVec S512x2400 32) (ix2 r q)) 7#32) (k0_pay9 (F := Ideal) (gcol3 x1) (ix2 r q))
            (Ideal.ofBits .f32 0x00000000#32)))) = _
  rw [low3_apply, gcol0_apply, gcol1_apply, gcol2_apply, gcol3_apply]
  rfl

/-- The body's two reductions of a 512×2400 array `M`, added to the accumulator: first along each row, then
    along the rows; the casts between one-entry shapes change nothing. -/
theorem tail_apply (M : FVec Ideal S512x2400 .f32) (xs : Vec Ideal S1x1x1 .f32) (j : S1x1x1.Idx)
    (h1 : S512x2400.Reduces [1] S512) (h2 : S512x1.Reduces [0] S1) (hφ : FKind.Formats .f32)
    (hacc : (0#32 : BitVec 32) = FKind.add.neutral .f32 hφ)
    (c1 : S512.ShapeCasts S512x1) (c2 : S1.ShapeCasts S1x1) (c3 : S1x1.ShapeCasts S1x1x1) :
    addf xs (shapeCast S1x1x1 (shapeCast S1x1 (multiReduction .add [0] S1
        (shapeCast S512x1 (multiReduction .add [1] S512 M 0#32 h1 hφ hacc) c1) 0#32 h2 hφ hacc) c2) c3) j
      = xs j + ∑ r : Fin 512, ∑ q : Fin 2400, M (ix2 r q) := by
  show xs j + shapeCast S1x1x1 _ c3 j = _
  congr 1
  rw [cast_unit (by decide) (by decide) _ c3 j (ix2 0 0), cast_unit (by decide) (by decide) _ c2 (ix2 0 0) (ix1 0),
    Ideal.multiReduction_add_single]
  refine Finset.sum_congr rfl fun (r : Fin 512) _ => ?_
  have hl : h2.lift (ix1 0) r = ix2 r 0 := by
    funext a
    match a with
    | ⟨0, _⟩ => rfl
    | ⟨1, _⟩ => rfl
  rw [hl, cast_col, Ideal.multiReduction_add_single]
  refine Finset.sum_congr rfl fun (q : Fin 2400) _ => ?_
  have hq : h1.lift (ix1 r) q = ix2 r q := by
    funext a
    match a with
    | ⟨0, _⟩ => rfl
    | ⟨1, _⟩ => rfl
  rw [hq]

/-- ONE STEP: the accumulator's entry plus the double sum of the masked costs of the point's blocks. -/
theorem step_apply (x0 : Vec Ideal S512x2400 .f32) (x1 : Vec Ideal S512x4 .f32) (x2 : Vec Ideal S512x1 .i32)
    (xs : Vec Ideal S1x1x1 .f32) (j : S1x1x1.Idx) :
    step (F := Ideal) x0 x1 x2 xs j = xs j + ∑ r : Fin 512, ∑ q : Fin 2400, cell x0 x1 x2 r q := by
  unfold step k0_pay1
  rw [shapeCast_self]
  generalize hM : select (k0_pay3 (F := Ideal) x2) _ _ = M
  refine (tail_apply M xs j _ _ _ _ _ _ _).trans ?_
  refine congrArg (fun z => xs j + z) ?_
  refine Finset.sum_congr rfl fun r _ => Finset.sum_congr rfl fun q _ => ?_
  rw [← hM]
  exact masked_apply x0 x1 x2 r q _ (paired_apply x1 r q)

end Cert.KernelIdeal.Acc

end
-- ==== Proof.Acc.lean ====
/-
  The accumulator along the grid.

  The 128 grid points are the 64 steps of core 0 followed by the 64 steps of core 1. After point `n` the
  accumulator holds `run n`: at a core's first step one step from zero, at any other step one step from
  what the point before left. At a core's last step the output's block receives the same value.
-/
import proofs.«425943_j71459665871443_3_alg».proof.Proof.Pieces

set_option maxRecDepth 16384

noncomputable section

namespace Cert.KernelIdeal.Acc

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-- The blocks point `t` reads: 512 rows of `output` (2400 wide), of `gt_boxes` and of `central_pos`. -/
abbrev oblk (c : Dev nD) (t : Fin cfg0.N) : Vec F S512x2400 .f32 := iblk m c 0 t
abbrev gblk (c : Dev nD) (t : Fin cfg0.N) : Vec F S512x4 .f32 := iblk m c 1 t
abbrev pblk (c : Dev nD) (t : Fin cfg0.N) : Vec F S512x1 .i32 := iblk m c 2 t

/-- The accumulator after point `n`. -/
def run (c : Dev nD) : (n : ℕ) → n < cfg0.N → Vec F S1x1x1 .f32
  | 0, h => step (oblk m c ⟨0, h⟩) (gblk m c ⟨0, h⟩) (pblk m c ⟨0, h⟩) zero
  | n + 1, h =>
    if (n + 1) % 64 = 0 then step (oblk m c ⟨n + 1, h⟩) (gblk m c ⟨n + 1, h⟩) (pblk m c ⟨n + 1, h⟩) zero
    else step (oblk m c ⟨n + 1, h⟩) (gblk m c ⟨n + 1, h⟩) (pblk m c ⟨n + 1, h⟩) (run c n (Nat.lt_of_succ_lt h))

/-- What the frame's point-by-point contents hold in the accumulator is that value, -/
theorem acc_eq (c : Dev nD) : ∀ (n : ℕ) (h : n < cfg0.N), (outsAt0 m c n h).2 = run m c n h
  | 0, h => by
    rw [outsAt0_A m c ⟨0, h⟩ rfl (by show ¬ (0 : ℕ) % 64 = 63; decide)]
    dsimp only
    exact acc_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) scM0_0 (Memref.isWhole_whole _) _ _ (oblk m c ⟨0, h⟩) (gblk m c ⟨0, h⟩) (pblk m c ⟨0, h⟩)
  | n + 1, h => by
    have hN : n + 1 < 128 := lt_of_lt_of_eq h (show cfg0.N = 128 from N_0)
    by_cases h0 : (n + 1) % 64 = 0
    · have h1 : ¬ (n + 1) % 64 = 63 := by omega
      rw [outsAt0_A m c ⟨n + 1, h⟩ h0 h1]
      dsimp only
      rw [run, if_pos h0]
      exact acc_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
        (ms0_3 ⟨n + 1, h⟩) (hs0_3 ⟨n + 1, h⟩) scM0_0 (Memref.isWhole_whole _) _ _ (oblk m c ⟨n + 1, h⟩) (gblk m c ⟨n + 1, h⟩) (pblk m c ⟨n + 1, h⟩)
    · by_cases h1 : (n + 1) % 64 = 63
      · rw [outsAt0_C m c ⟨n + 1, h⟩ h0 h1]
        dsimp only
        rw [run, if_neg h0]
        refine (acc_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
          (ms0_3 ⟨n + 1, h⟩) (hs0_3 ⟨n + 1, h⟩) scM0_0 (Memref.isWhole_whole _) _ _ (oblk m c ⟨n + 1, h⟩) (gblk m c ⟨n + 1, h⟩) (pblk m c ⟨n + 1, h⟩) _).trans ?_
        exact congrArg (step (oblk m c ⟨n + 1, h⟩) (gblk m c ⟨n + 1, h⟩) (pblk m c ⟨n + 1, h⟩)) (acc_eq c n (Nat.lt_of_succ_lt h))
      · rw [outsAt0_B m c ⟨n + 1, h⟩ h0 h1]
        dsimp only
        rw [run, if_neg h0]
        refine (acc_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
          (ms0_3 ⟨n + 1, h⟩) (hs0_3 ⟨n + 1, h⟩) scM0_0 (Memref.isWhole_whole _) _ _ (oblk m c ⟨n + 1, h⟩) (gblk m c ⟨n + 1, h⟩) (pblk m c ⟨n + 1, h⟩) _).trans ?_
        exact congrArg (step (oblk m c ⟨n + 1, h⟩) (gblk m c ⟨n + 1, h⟩) (pblk m c ⟨n + 1, h⟩)) (acc_eq c n (Nat.lt_of_succ_lt h))

/-- and at a core's last step the output's block holds it too. -/
theorem out_eq (c : Dev nD) (t : Fin cfg0.N) (h1 : t.val % 64 = 63) : (outsAt0 m c t.val t.isLt).1 = run m c t.val t.isLt := by
  have h0 : ¬ t.val % 64 = 0 := by omega
  obtain ⟨n, h⟩ := t
  cases n with
  | zero => exact absurd h1 (by show ¬ (0 : ℕ) % 64 = 63; decide)
  | succ n =>
    rw [outsAt0_C m c ⟨n + 1, h⟩ h0 h1]
    dsimp only
    rw [run, if_neg h0]
    refine (out_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
      (ms0_3 ⟨n + 1, h⟩) (hs0_3 ⟨n + 1, h⟩) scM0_0 (Memref.isWhole_whole _) _ _ (oblk m c ⟨n + 1, h⟩) (gblk m c ⟨n + 1, h⟩) (pblk m c ⟨n + 1, h⟩) _).trans ?_
    exact congrArg (step (oblk m c ⟨n + 1, h⟩) (gblk m c ⟨n + 1, h⟩) (pblk m c ⟨n + 1, h⟩)) (acc_eq m c n (Nat.lt_of_succ_lt h))

end Cert.KernelIdeal.Acc

end
-- ==== Proof.AccValue.lean ====
/-
  The accumulator as a sum, over the extended reals.

  With `blockSum t` the masked sum of the blocks point `t` reads, the accumulator after point `n` — step
  `n % 64` of its core — holds the sum of `blockSum` over the core's steps `0 .. n % 64`: each step adds
  its block sum, and a core's first step starts again from zero.
-/
import proofs.«425943_j71459665871443_3_alg».proof.Proof.StepValue
import proofs.«425943_j71459665871443_3_alg».proof.Proof.Acc

set_option maxRecDepth 16384

noncomputable section

namespace Cert.KernelIdeal.Acc

open Idealize.ShloMosaic Idealize.ShloMosaic.TcCoe Idealize.ShloMosaic.ValueIdx
open Idealize.SL Idealize.SL.Sem
open Cert.KernelIdeal Cert.KernelIdeal.Gen
open scoped BigOperators

variable (m : (ℓ : Loc nD τ sig) → Buf (Elt Ideal) ℓ)

/-- The masked sum of the blocks point `t` reads. -/
def blockSum (c : Dev nD) (t : Fin cfg0.N) : EReal :=
  ∑ r : Fin 512, ∑ q : Fin 2400, cell (oblk m c t) (gblk m c t) (pblk m c t) r q

/-- The same by the point's number, zero past the grid. -/
def blockSumN (c : Dev nD) (k : ℕ) : EReal := if h : k < cfg0.N then blockSum m c ⟨k, h⟩ else 0

theorem blockSumN_of_lt (c : Dev nD) (k : ℕ) (h : k < cfg0.N) : blockSumN m c k = blockSum m c ⟨k, h⟩ := dif_pos h

/-- The reset's zero is the extended real zero. -/
theorem zero_apply (j : S1x1x1.Idx) : (zero : FVec Ideal S1x1x1 .f32) j = 0 := by
  unfold zero k0_pay2
  rw [shapeCast_self]
  exact Ideal.ofBits_zero_f32

/-- THE ACCUMULATOR after point `n`: the block sums of its core's steps so far. -/
theorem run_apply (c : Dev nD) : ∀ (n : ℕ) (h : n < cfg0.N) (j : S1x1x1.Idx),
    run m c n h j = ∑ i ∈ Finset.range (n % 64 + 1), blockSumN m c (n - n % 64 + i)
  | 0, h, j => by
    rw [run, step_apply, zero_apply, zero_add]
    show blockSum m c ⟨0, h⟩ = ∑ i ∈ Finset.range 1, blockSumN m c (0 + i)
    rw [Finset.sum_range_one, blockSumN_of_lt m c 0 h]
  | n + 1, h, j => by
    by_cases h0 : (n + 1) % 64 = 0
    · rw [run, if_pos h0, step_apply, zero_apply, zero_add, h0, Nat.sub_zero, Finset.sum_range_one]
      exact (blockSumN_of_lt m c (n + 1) h).symm
    · have e1 : (n + 1) % 64 = n % 64 + 1 := by omega
      have e2 : n + 1 - (n % 64 + 1) = n - n % 64 := by omega
      have e3 : n - n % 64 + (n % 64 + 1) = n + 1 := by omega
      rw [run, if_neg h0, step_apply, run_apply c n (Nat.lt_of_succ_lt h) j, e1, e2,
        Finset.sum_range_succ _ (n % 64 + 1), e3]
      exact congrArg (fun z => (∑ i ∈ Finset.range (n % 64 + 1), blockSumN m c (n - n % 64 + i)) + z)
        (blockSumN_of_lt m c (n + 1) h).symm

end Cert.KernelIdeal.Acc

end
-- ==== Proof.Blocks.lean ====
/-
  The blocks a point reads, as entries of the argument arrays.

  Point `t` reads rows `512·t .. 512·t + 511` of three arrays: `output` viewed as 65536 rows of 2400
  numbers (row `b`, column `q` of that view is entry `(300·b + q / 8, q % 8)` of `output`), `gt_boxes`,
  and `central_pos` viewed as a column.
-/
import proofs.«425943_j71459665871443_3_alg».proof.Proof.Acc
import Idealize.ShloMosaic.Lib.Pipeline.Value
import Idealize.ShloMosaic.Lib.StableHlo.Run
import Idealize.ShloMosaic.Lib.ValueIdx

set_option maxRecDepth 16384

noncomputable section

namespace Cert.KernelIdeal.Acc

open Idealize.ShloMosaic Idealize.ShloMosaic.TcCoe Idealize.ShloMosaic.ValueIdx
open Idealize.SL Idealize.SL.Sem
open Cert.KernelIdeal Cert.KernelIdeal.Gen

variable {F : FTy → Type} [FloatOps F]
variable (m : (ℓ : Loc nD τ sig) → Buf (Elt F) ℓ)

/-- Every input window's block at point `t` is block `t` along the rows. -/
theorem idx_in : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0)

/-- Row `r` of point `t`'s blocks is row `512·t + r` of the arrays. -/
def rowOf (t : Fin cfg0.N) (r : Fin 512) : Fin 65536 := ⟨512 * t.val + r.val, by
  have hN : t.val < 128 := lt_of_lt_of_eq t.isLt (show cfg0.N = 128 from N_0)
  have := r.isLt
  omega⟩

/-- `output` as the region finds it: the argument viewed as 65536 rows of 2400. -/
theorem V_main_v0 (c : Dev nD) : (V m c main_v0 : S65536x2400.Idx → Elt F .f32)
    = shapeCast S65536x2400 (m ((c : Thread nD τ).loc main_arg0)) shapeCasts_S19660800x8_S65536x2400 := by
  show StableHlo.after hostOps0 (fun b => m (c, b)) (Proc.devRef .tc main_v0) = _
  after_results
  rfl

/-- `central_pos` as the region finds it: the argument viewed as a column. -/
theorem V_main_v1 (c : Dev nD) : (V m c main_v1 : S65536x1.Idx → Elt F .i32)
    = shapeCast S65536x1 (m ((c : Thread nD τ).loc main_arg2)) shapeCasts_S65536_S65536x1 := by
  show StableHlo.after hostOps0 (fun b => m (c, b)) (Proc.devRef .tc main_v1) = _
  after_results
  rfl

/-- The block of `gt_boxes`. -/
theorem gblk_apply (c : Dev nD) (t : Fin cfg0.N) (r : Fin 512) (k : Fin 4) :
    gblk m c t (ix2 r k) = m ((c : Thread nD τ).loc main_arg1) (ix2 (rowOf t r) k) := by
  obtain ⟨-, -, e0, e1, -, -⟩ := idx_in t
  show iblk m c 1 t (ix2 r k) = _
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 512 + 1 * r.val = 512 * t.val + r.val; rw [e0]; omega
  | ⟨1, _⟩ => show win0_1.index t (1 : Fin 2) * 4 + 1 * k.val = k.val; rw [e1]; omega

/-- The block of `central_pos`. -/
theorem pblk_apply (c : Dev nD) (t : Fin cfg0.N) (r : Fin 512) :
    pblk m c t (ix2 r 0) = m ((c : Thread nD τ).loc main_arg2) (ix1 (rowOf t r)) := by
  obtain ⟨-, -, -, -, e0, e1⟩ := idx_in t
  show iblk m c 2 t (ix2 r 0) = _
  unfold iblk
  rw [View.read_apply]
  show V m c main_v1 _ = _
  rw [V_main_v1]
  refine shapeCast_apply _ _ _ _ ?_
  rw [Shape.rowMajor_val_two]
  show (S65536.rowMajor (ix1 (rowOf t r))).val = _
  rw [Shape.rowMajor_val_one]
  show 512 * t.val + r.val = (win0_2.index t (0 : Fin 2) * 512 + 1 * r.val) * 1 + (win0_2.index t (1 : Fin 2) * 1 + 1 * 0)
  rw [e0, e1]; omega

/-- The block of `output`: column `q` of row `512·t + r` of the 2400-wide view. -/
theorem oblk_apply (c : Dev nD) (t : Fin cfg0.N) (r : Fin 512) (q : Fin 2400) :
    oblk m c t (ix2 r q) = m ((c : Thread nD τ).loc main_arg0)
      (ix2 ⟨300 * (rowOf t r).val + q.val / 8, by have := (rowOf t r).isLt; have := q.isLt; omega⟩ ⟨q.val % 8, by omega⟩) := by
  obtain ⟨e0, e1, -, -, -, -⟩ := idx_in t
  show iblk m c 0 t (ix2 r q) = _
  unfold iblk
  rw [View.read_apply]
  show V m c main_v0 _ = _
  rw [V_main_v0]
  refine shapeCast_apply _ _ _ _ ?_
  rw [Shape.rowMajor_val_two]
  show (S19660800x8.rowMajor (ix2 (n0 := 19660800) (n1 := 8) ⟨300 * (rowOf t r).val + q.val / 8, by have := (rowOf t r).isLt; have := q.isLt; omega⟩ ⟨q.val % 8, by omega⟩)).val = _
  rw [Shape.rowMajor_val_two]
  show (300 * (512 * t.val + r.val) + q.val / 8) * 8 + q.val % 8
    = (win0_0.index t (0 : Fin 2) * 512 + 1 * r.val) * 2400 + (win0_0.index t (1 : Fin 2) * 2400 + 1 * q.val)
  rw [e0, e1]; omega

end Cert.KernelIdeal.Acc

end
-- ==== Proof.Final.lean ====
/-
  The output array after the region.

  The output has one entry per core. Core `k`'s entry is written back once, after the core's last step
  (point `64·k + 63`), and receives the accumulator's contents there; the two write-backs cover the array.
-/
import proofs.«425943_j71459665871443_3_alg».proof.Proof.Acc
import Idealize.ShloMosaic.Lib.Pipeline.Value
import Idealize.ShloMosaic.Lib.ValueIdx

set_option maxRecDepth 16384

noncomputable section

namespace Cert.KernelIdeal.Acc

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- The accumulator's value depends on the point's number only. -/
theorem run_congr (c : Dev nD) {n n' : ℕ} (e : n = n') (h : n < cfg0.N) (h' : n' < cfg0.N) :
    run m c n h = run m c n' h' := by
  subst e; rfl

/-- The output array: entry `k` is the accumulator after core `k`'s last step. -/
def outArr (c : Dev nD) : Vec F S2x1x1 .f32 := fun i =>
  run m c (64 * (i 0).val + 63) (by
    have h : (i 0).val < 2 := (i 0).isLt
    have hN : cfg0.N = 128 := N_0
    rw [hN]; omega) (ix3 0 0 0)

/-- The output's block at point `t` is entry `t / 64`. -/
theorem idx3 : ∀ t : Fin cfg0.N, win0_3.index t (0 : Fin 3) = t.val / 64 ∧ win0_3.index t (1 : Fin 3) = 0
    ∧ win0_3.index t (2 : Fin 3) = 0 :=
  (by decide +kernel : ∀ t : Fin grid0.N, win0_3.index t (0 : Fin 3) = t.val / 64 ∧ win0_3.index t (1 : Fin 3) = 0
    ∧ win0_3.index t (2 : Fin 3) = 0)

/-- A one-entry block has one index. -/
theorem idx_unit (y : S1x1x1.Idx) : y = ix3 0 0 0 := by
  funext a
  apply Fin.ext
  match a with
  | ⟨0, _⟩ => have h : (y 0).val < 1 := (y 0).isLt; show (y 0).val = 0; omega
  | ⟨1, _⟩ => have h : (y 1).val < 1 := (y 1).isLt; show (y 1).val = 0; omega
  | ⟨2, _⟩ => have h : (y 2).val < 1 := (y 2).isLt; show (y 2).val = 0; omega

/-- WHAT A WRITE-BACK WRITES: at a core's last step, that core's entry of `outArr`. -/
theorem flushed_eq (c : Dev nD) (t : Fin cfg0.N) (hf : (cfg0.win 3).flush t = true) :
    (dats m 0 c).flushed 3 t = ((cfg0.win 3).blk t).view.read (Elt F) (outArr m c) := by
  have h63 : t.val % 64 = 63 := (flush0_3 t).mp hf
  obtain ⟨e0, e1, e2⟩ := idx3 t
  show (cfg0.win 3).cut (grid0.coords t) ((dats m 0 c).after 3 t) = _
  rw [after0_3, out_eq m c t h63]
  funext y
  rw [idx_unit y]
  show run m c t.val t.isLt (ix3 0 0 0) = outArr m c (((cfg0.win 3).blk t).view.emb (ix3 0 0 0))
  unfold outArr
  refine congrFun (run_congr m c ?_ _ _) _
  show t.val = 64 * (win0_3.index t (0 : Fin 3) * 1 + 1 * 0) + 63
  rw [e0]; omega

/-- An index of the output array is in point `t`'s block iff each coordinate is in the block's range. -/
theorem mem_blk (t : Fin cfg0.N) (i : S2x1x1.Idx) :
    i ∈ ((cfg0.win 3).blk t).view.set ↔ ∀ a : Fin 3, win0_3.index t a * S1x1x1.size a ≤ (i a).val
      ∧ (i a).val < win0_3.index t a * S1x1x1.size a + S1x1x1.size a := by
  show i ∈ ((View.whole main_v2).slice (win0_3.rect t)).set ↔ _
  rw [View.set_slice_whole, Rect.mem_set_unit]
  exact Iff.rfl

/-- The last step of core `k`. -/
def lastOf (k : Fin 2) : Fin cfg0.N := ⟨64 * k.val + 63, by
  have hN : cfg0.N = 128 := N_0
  have := k.isLt
  rw [hN]; omega⟩

/-- The two write-backs cover the output array. -/
theorem covered (i : S2x1x1.Idx) :
    ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 1 := (i 2).isLt
  refine ⟨lastOf ⟨(i 0).val, h0⟩, (flush0_3 _).mpr (by show (64 * (i 0).val + 63) % 64 = 63; omega), ?_⟩
  rw [mem_blk]
  obtain ⟨e0, e1, e2⟩ := idx3 (lastOf ⟨(i 0).val, h0⟩)
  have e0' : win0_3.index (lastOf ⟨(i 0).val, h0⟩) (0 : Fin 3) = (i 0).val := by
    rw [e0]; show (64 * (i 0).val + 63) / 64 = (i 0).val; omega
  intro a
  match a with
  | ⟨0, _⟩ =>
    show win0_3.index (lastOf ⟨(i 0).val, h0⟩) (0 : Fin 3) * 1 ≤ (i 0).val
      ∧ (i 0).val < win0_3.index (lastOf ⟨(i 0).val, h0⟩) (0 : Fin 3) * 1 + 1
    rw [e0']; omega
  | ⟨1, _⟩ =>
    show win0_3.index (lastOf ⟨(i 0).val, h0⟩) (1 : Fin 3) * 1 ≤ (i 1).val
      ∧ (i 1).val < win0_3.index (lastOf ⟨(i 0).val, h0⟩) (1 : Fin 3) * 1 + 1
    rw [e1]; omega
  | ⟨2, _⟩ =>
    show win0_3.index (lastOf ⟨(i 0).val, h0⟩) (2 : Fin 3) * 1 ≤ (i 2).val
      ∧ (i 2).val < win0_3.index (lastOf ⟨(i 0).val, h0⟩) (2 : Fin 3) * 1 + 1
    rw [e2]; omega

/-- THE OUTPUT ARRAY after the region is `outArr`. -/
theorem final_out (c : Dev nD) : (dats m 0 c).arrAt 3 cfg0.N = outArr m c :=
  (dats m 0 c).arrAt_eq_of_cover 3 (outArr m c) (flushed_eq m c) (covered)

end Cert.KernelIdeal.Acc

end
-- ==== Proof.Regroup.lean ====
/-
Regrouping a sum over 65536 consecutive natural numbers.

The 65536 rows `0, 1, …, 65535` are visited in three nested stages: 2 cores,
64 steps per core, 512 rows per step, the row visited being
`512·(64·k + i) + r`.  Because every row number below `65536 = 2·64·512` has
exactly one such decomposition, the nested sum of any function of the row number
equals the plain sum over all rows.  The proof splits a range of length `a·b`
into `a` consecutive blocks of length `b` and applies this twice
(`65536 = 128·512`, `128 = 2·64`).  Everything holds in an arbitrary additive
commutative monoid.
-/
import Mathlib.Algebra.BigOperators.Fin
import Mathlib.Algebra.BigOperators.Group.Finset.Basic

open scoped BigOperators

namespace Cert.Regroup

/-- A range of length `a * b` is the concatenation of `a` blocks of length `b`: index `b·p + q`. -/
theorem sum_range_mul_blocks {M : Type} [AddCommMonoid M] (g : ℕ → M) (a b : ℕ) :
    ∑ j ∈ Finset.range (a * b), g j
      = ∑ p ∈ Finset.range a, ∑ q ∈ Finset.range b, g (b * p + q) := by
  induction a with
  | zero => simp
  | succ n ih =>
    rw [Nat.succ_mul, Finset.sum_range_add, ih, Finset.sum_range_succ, Nat.mul_comm n b]

/-- Summing over 2 cores, the 64 steps of a core and the 512 rows of a step is summing over the 65536 rows: row `512·(64·k + i) + r`. -/
theorem sum_cores_steps_rows {M : Type} [AddCommMonoid M] (f : ℕ → M) :
    ∑ k : Fin 2, ∑ i ∈ Finset.range 64, ∑ r : Fin 512, f (512 * (64 * k.val + i) + r.val) = ∑ b : Fin 65536, f b.val := by
  -- the innermost sum over `Fin 512` as a sum over `range 512`
  have hrow : ∀ j : ℕ, ∑ r : Fin 512, f (512 * j + r.val) = ∑ r ∈ Finset.range 512, f (512 * j + r) :=
    fun j => (Finset.sum_range (fun r => f (512 * j + r))).symm
  calc ∑ k : Fin 2, ∑ i ∈ Finset.range 64, ∑ r : Fin 512, f (512 * (64 * k.val + i) + r.val)
      = ∑ k ∈ Finset.range 2, ∑ i ∈ Finset.range 64,
          ∑ r ∈ Finset.range 512, f (512 * (64 * k + i) + r) := by
        rw [Finset.sum_range (fun k => ∑ i ∈ Finset.range 64,
          ∑ r ∈ Finset.range 512, f (512 * (64 * k + i) + r))]
        simp only [hrow]
    _ = ∑ j ∈ Finset.range (2 * 64), ∑ r ∈ Finset.range 512, f (512 * j + r) :=
        (sum_range_mul_blocks (fun j => ∑ r ∈ Finset.range 512, f (512 * j + r)) 2 64).symm
    _ = ∑ b ∈ Finset.range (2 * 64 * 512), f b := (sum_range_mul_blocks f (2 * 64) 512).symm
    _ = ∑ b : Fin 65536, f b.val := Finset.sum_range f

end Cert.Regroup
-- ==== Proof.KernelTotal.lean ====
/-
  The kernel's sum is the loss's sum.

  Under the range of the positions, the masked sum of row `r` of point `t`'s blocks is the cost of row
  `512·t + r` in the loss: the window `8·p + 4 .. 8·p + 7` of the 2400-wide row holds columns 4..7 of
  proposal `p` of that image, and the low three bits pair column `8·p + 4 + k` with coordinate `k` of
  `gt_boxes`. Summed over the rows of a block, the steps of a core and the two cores this is the sum
  over all 65536 images.
-/
import proofs.«425943_j71459665871443_3_alg».proof.Proof.AccValue
import proofs.«425943_j71459665871443_3_alg».proof.Proof.Blocks
import proofs.«425943_j71459665871443_3_alg».proof.Proof.Final
import proofs.«425943_j71459665871443_3_alg».proof.Proof.Regroup

set_option maxRecDepth 16384

noncomputable section

namespace Cert.KernelIdeal.Acc

open Idealize.ShloMosaic Idealize.ShloMosaic.TcCoe Idealize.ShloMosaic.ValueIdx
open Idealize.SL Idealize.SL.Sem
open Cert.KernelIdeal Cert.KernelIdeal.Gen
open scoped BigOperators

variable (m : (ℓ : Loc nD τ sig) → Buf (Elt Ideal) ℓ)

/-- The three arguments on core `c`'s device. -/
abbrev argOut (c : Dev nD) : FVec Ideal S19660800x8 .f32 := m ((c : Thread nD τ).loc main_arg0)
abbrev argGt (c : Dev nD) : FVec Ideal S65536x4 .f32 := m ((c : Thread nD τ).loc main_arg1)
abbrev argPos (c : Dev nD) : IVec S65536 32 := m ((c : Thread nD τ).loc main_arg2)

/-- The cost of image `b`: its four coordinates' entry costs. -/
def rowCost (c : Dev nD) (b : Fin 65536) : EReal :=
  ∑ k : Fin 4, Cert.Loss.term (F := Ideal) (argOut m c (ix2 (Cert.Loss.row b (argPos m c (ix1 b))) (Cert.Loss.col k)))
    (argGt m c (ix2 b k))

/-- The loss's sum is the sum of the images' costs. -/
theorem total_eq (c : Dev nD) : Cert.Loss.total (argOut m c) (argGt m c) (argPos m c) = ∑ b : Fin 65536, rowCost m c b := rfl

/-- ONE ROW: the masked sum of row `r` of point `t`'s blocks is the cost of image `512·t + r`. -/
theorem row_sum (c : Dev nD) (hR : Cert.Loss.InRange (argPos m c)) (t : Fin cfg0.N) (r : Fin 512) :
    ∑ q : Fin 2400, cell (oblk m c t) (gblk m c t) (pblk m c t) r q = rowCost m c (rowOf t r) := by
  have hp : pblk m c t (ix2 r 0) = argPos m c (ix1 (rowOf t r)) := pblk_apply m c t r
  have hlt : (argPos m c (ix1 (rowOf t r))).toNat < 300 := hR.toNat_lt (rowOf t r)
  unfold cell
  rw [hp, Ideal.ofBits_zero_f32]
  rw [Cert.MaskSum.sum_inWin (argPos m c (ix1 (rowOf t r))) hlt]
  unfold rowCost
  refine Finset.sum_congr rfl fun k _ => ?_
  have hk : k.val < 4 := k.isLt
  have hB : Cert.MaskSum.pick (8 * (argPos m c (ix1 (rowOf t r))).toNat + 4 + k.val) (gblk m c t (ix2 r 0))
      (gblk m c t (ix2 r 1)) (gblk m c t (ix2 r 2)) (gblk m c t (ix2 r 3)) (0 : EReal) = gblk m c t (ix2 r k) :=
    Cert.MaskSum.pick_window (argPos m c (ix1 (rowOf t r))).toNat hlt k (fun k' => gblk m c t (ix2 r k')) 0
  have hA : oblk m c t (ix2 r ⟨8 * (argPos m c (ix1 (rowOf t r))).toNat + 4 + k.val, by omega⟩)
      = argOut m c (ix2 (Cert.Loss.row (rowOf t r) (argPos m c (ix1 (rowOf t r)))) (Cert.Loss.col k)) := by
    rw [oblk_apply]
    refine congrArg (argOut m c) (funext fun a => Fin.ext ?_)
    match a with
    | ⟨0, _⟩ =>
      show 300 * (rowOf t r).val + (8 * (argPos m c (ix1 (rowOf t r))).toNat + 4 + k.val) / 8
        = (Cert.Loss.row (rowOf t r) (argPos m c (ix1 (rowOf t r)))).val
      rw [Cert.Loss.row_val hR]; omega
    | ⟨1, _⟩ =>
      show (8 * (argPos m c (ix1 (rowOf t r))).toNat + 4 + k.val) % 8 = 4 + k.val
      omega
  exact congrArg₂ (Cert.Loss.term (F := Ideal)) hA (hB.trans (gblk_apply m c t r k))

/-- ONE BLOCK: its masked sum is the costs of its 512 images. -/
theorem blockSum_eq (c : Dev nD) (hR : Cert.Loss.InRange (argPos m c)) (t : Fin cfg0.N) :
    blockSum m c t = ∑ r : Fin 512, rowCost m c (rowOf t r) :=
  Finset.sum_congr rfl fun r _ => row_sum m c hR t r

/-- An image's cost by its number, zero past the last image. -/
def rowCostN (c : Dev nD) (b : ℕ) : EReal := if h : b < 65536 then rowCost m c ⟨b, h⟩ else 0

theorem blockSumN_eq (c : Dev nD) (hR : Cert.Loss.InRange (argPos m c)) (n : ℕ) (hn : n < 128) :
    blockSumN m c n = ∑ r : Fin 512, rowCostN m c (512 * n + r.val) := by
  have h : n < cfg0.N := by rw [show cfg0.N = 128 from N_0]; exact hn
  rw [blockSumN_of_lt m c n h, blockSum_eq m c hR]
  refine Finset.sum_congr rfl fun r _ => ?_
  have hb : 512 * n + r.val < 65536 := by have := r.isLt; omega
  unfold rowCostN
  rw [dif_pos hb]
  rfl

/-- ONE CORE: its entry of the output array is the costs of the images of its 64 steps. -/
theorem outArr_core (c : Dev nD) (hR : Cert.Loss.InRange (argPos m c)) (k : Fin 2) :
    outArr m c (ix3 k 0 0) = ∑ i ∈ Finset.range 64, ∑ r : Fin 512, rowCostN m c (512 * (64 * k.val + i) + r.val) := by
  have hk := k.isLt
  show run m c (64 * k.val + 63) _ (ix3 0 0 0) = _
  rw [run_apply]
  have e1 : (64 * k.val + 63) % 64 = 63 := by omega
  rw [e1]
  show ∑ i ∈ Finset.range 64, blockSumN m c (64 * k.val + 63 - 63 + i) = _
  refine Finset.sum_congr rfl fun i hi => ?_
  have hi' : i < 64 := Finset.mem_range.mp hi
  rw [show 64 * k.val + 63 - 63 + i = 64 * k.val + i from by omega]
  exact blockSumN_eq m c hR _ (by omega)

/-- The output array's indices are the two cores. -/
def coreEquiv : Fin 2 ≃ S2x1x1.Idx where
  toFun k := ix3 k 0 0
  invFun i := ⟨(i 0).val, (i 0).isLt⟩
  left_inv k := rfl
  right_inv i := by
    funext a
    apply Fin.ext
    match a with
    | ⟨0, _⟩ => rfl
    | ⟨1, _⟩ => have h : (i 1).val < 1 := (i 1).isLt; show 0 = (i 1).val; omega
    | ⟨2, _⟩ => have h : (i 2).val < 1 := (i 2).isLt; show 0 = (i 2).val; omega

/-- THE KERNEL'S SUM: the output array's entries add up to the loss's sum over all images. -/
theorem kernel_total (c : Dev nD) (hR : Cert.Loss.InRange (argPos m c)) :
    ∑ i : S2x1x1.Idx, outArr m c i = Cert.Loss.total (argOut m c) (argGt m c) (argPos m c) := by
  rw [total_eq, ← Equiv.sum_comp coreEquiv (outArr m c)]
  show ∑ k : Fin 2, outArr m c (ix3 k 0 0) = _
  rw [Finset.sum_congr rfl fun k _ => outArr_core m c hR k, Cert.Regroup.sum_cores_steps_rows (rowCostN m c)]
  refine Finset.sum_congr rfl fun b _ => ?_
  unfold rowCostN
  rw [dif_pos b.isLt]

end Cert.KernelIdeal.Acc

end
-- ==== Proof.KernelRun.lean ====
/-
  The kernel program's run, read: its result is the loss of its arguments.

  After the region two host operations remain: the sum of the output array's two entries from zero, and the
  division by 262144. With the output array's entries the two cores' accumulated sums, the result is the
  mean of the sum over all images.
-/
import proofs.«425943_j71459665871443_3_alg».proof.Proof.KernelTotal
import Idealize.ShloMosaic.Lib.StableHlo.Run
import Idealize.ShloMosaic.PureOps.Ideal.Laws

set_option maxRecDepth 16384

noncomputable section

namespace Cert.KernelIdeal.Acc

open Idealize.ShloMosaic Idealize.ShloMosaic.TcCoe Idealize.ShloMosaic.ValueIdx
open Idealize.SL Idealize.SL.Sem
open Cert.KernelIdeal Cert.KernelIdeal.Gen
open scoped BigOperators

section Tail
variable {F : FTy → Type} [FloatOps F]
variable (m : (ℓ : Loc nD τ sig) → Buf (Elt F) ℓ)

/-- The result buffer after the host operations that follow the region: the output array summed from the zero
    word and divided by the entry count. -/
theorem tail_v4 (c : Dev nD) :
    Pipeline.afterTail₀ cfgs (dats m) 0 (V0 m) [hostOps1] c main_v4
      = Host.divf (Host.reduceAdd (outArr m c) (constant S_ .f32 0x00000000#32) reducesTo_S2x1x1_S_d0_1_2 h_S_)
          (constant S_ .f32 0x48800000#32) := by
  unfold Pipeline.afterTail₀
  show StableHlo.after hostOps1 _ (Proc.devRef .tc main_v4) = _
  after_results
  rw [show Pipeline.withArrays (cfgs 0).spec c (V0 m c) (fun w => (dats m 0 c).arrAt w (cfgs 0).N)
      (Proc.devRef .tc main_v2) = outArr m c from
    (Pipeline.withArrays_arr spec0 launch0.win.arr_inj c _ _ 3).trans (final_out m c)]

end Tail

/-! ## At the extended reals -/

/-- The two host operations of a two-entry array `O`: the mean of its entries' sum. -/
theorem mean_of_out (O : FVec Ideal S2x1x1 .f32) :
    Host.divf (Host.reduceAdd O (constant (F := Ideal) S_ .f32 0x00000000#32) reducesTo_S2x1x1_S_d0_1_2 h_S_)
        (constant (F := Ideal) S_ .f32 0x48800000#32)
      = Cert.Loss.mean (∑ i : S2x1x1.Idx, O i) := by
  funext j
  refine congrArg (fun z => FloatOps.hostDivf (F := Ideal) (φ := .f32) z (Ideal.ofBits .f32 0x48800000#32)) ?_
  simp only [Host.reduceAdd, Ideal.hostReduceAdd_def]
  exact Ideal.hostReduceAdd_total reducesTo_S2x1x1_S_d0_1_2 (fun b => b.elim0) O _ j

variable (m : (ℓ : Loc nD τ sig) → Buf (Elt Ideal) ℓ) (ρ : Dev nD → PrngReg)

/-- THE KERNEL PROGRAM'S RUN: under the range of the positions every weakly fair execution terminates with the
    result at the loss of the arguments, and the arguments unchanged. -/
theorem kernel_run (hR : ∀ c : Dev nD, Cert.Loss.InRange (argPos m c)) :
    θ_run defs (onTc (τ := τ) (main (F := Ideal))) ⟨m, fun _ => 0, ρ⟩ (fun r => ∀ c : Dev nD,
      r.2.mem ((c.tc : Thread nD τ).loc main_v4) = Cert.Loss.loss (argOut m c) (argGt m c) (argPos m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans
        ((tail_v4 m c).trans ((mean_of_out (outArr m c)).trans (congrArg Cert.Loss.mean (kernel_total m c (hR c))))),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Acc

end
-- ==== Proof.RefLoss.lean ====
/-
  The reference program read as the loss of Loss.lean.

  The reference adds 300 times the image number to each position, as 32-bit signed words, wraps a negative
  sum by the row count, pairs the result with the constant column 4, and gathers a 1 x 4 slice of the
  prediction array at that start (each start read signed and clamped so that the slice fits). For positions
  in [0, 300) the sum 300 b + p is at most 19660799: it neither overflows nor is negative nor is clamped, so
  the slice is columns 4..7 of row 300 b + p. The rest of the program is the entry cost applied pointwise to
  the flattened difference, the sum of all 262144 costs from the zero word, and the division by 262144; the
  flattening is a bijection of index sets, so the sum over it is the double sum over images and coordinates.
-/
import proofs.«425943_j71459665871443_3_alg».proof.Proof.Gen.ReferenceIdeal.Read
import proofs.«425943_j71459665871443_3_alg».proof.Proof.Loss
import Idealize.ShloMosaic.Lib.ValueIdx
import Idealize.ShloMosaic.Lib.WordArith
import Idealize.ShloMosaic.Lib.Affine
import Idealize.ShloMosaic.Lib.Pipeline.Value
import Idealize.ShloMosaic.PureOps.Ideal.Laws

noncomputable section

namespace Cert.RefLoss

open Idealize.ShloMosaic Idealize.ShloMosaic.ValueIdx Cert.ReferenceIdeal Cert.ReferenceIdeal.Read
open scoped BigOperators

/-! ## The row word: position plus 300 times the image number -/

/-- The row word of image `b`, spelt as the reference computes it. -/
theorem v3_eq (x2 : IVec S65536 32) (b : Fin 65536) :
    val_main_v3 (F := Ideal) x2 (ix1 b) = x2 (ix1 b) + 300#32 * BitVec.ofNat 32 b.val := rfl

/-- For a position in `[0, 300)` the row word reads signed as the integer `p + 300 b`: no overflow. -/
theorem rowWord_toInt {x2 : IVec S65536 32} (h : Cert.Loss.InRange x2) (b : Fin 65536) :
    (x2 (ix1 b) + 300#32 * BitVec.ofNat 32 b.val).toInt = (x2 (ix1 b)).toInt + 300 * (b.val : Int) := by
  have hb := b.isLt
  have h0 := (h b).1
  have h1 := (h b).2
  have e0 : (BitVec.ofNat 32 b.val).toInt = (b.val : Int) := WordArith.toInt_ofNat_small b.val (by omega)
  have e300 : (300#32 : BitVec 32).toInt = 300 := by decide
  have em : (300#32 * BitVec.ofNat 32 b.val).toInt = 300 * (b.val : Int) := by
    rw [WordArith.toInt_mul_of_bounds _ _ (by rw [e0, e300]; omega) (by rw [e0, e300]; omega), e0, e300]
  rw [WordArith.toInt_add_of_bounds _ _ (by rw [em]; omega) (by rw [em]; omega), em]

/-- The row word is not negative, so the wrap of negative rows leaves it alone. -/
theorem v8_eq {x2 : IVec S65536 32} (h : Cert.Loss.InRange x2) (b : Fin 65536) :
    val_main_v8 (F := Ideal) x2 (ix1 b) = x2 (ix1 b) + 300#32 * BitVec.ofNat 32 b.val := by
  have e := rowWord_toInt h b
  have h0 := (h b).1
  have hc : ¬ (IntOp.cmpi .slt (x2 (ix1 b) + 300#32 * BitVec.ofNat 32 b.val) 0#32 = 1#1) := by
    rw [IntOp.cmpi_slt, e, show (0#32 : BitVec 32).toInt = 0 from by decide]; omega
  show Scalar.select (IntOp.cmpi .slt (x2 (ix1 b) + 300#32 * BitVec.ofNat 32 b.val) 0#32) _
    (x2 (ix1 b) + 300#32 * BitVec.ofNat 32 b.val) = _
  rw [eq_zero_of_ne_one hc, select_zero]

/-! ## The start indices: the row word beside the constant column 4 -/

/-- Column 0 of the start indices holds the row word. -/
theorem v11_at0 (x2 : IVec S65536 32) (b : Fin 65536) :
    val_main_v11 (F := Ideal) x2 (ix2 b (0 : Fin 2)) = val_main_v8 (F := Ideal) x2 (ix1 b) := by
  unfold val_main_v11
  refine (concatenate_pair_apply_left (t := S65536x2) (s₁ := S65536x1) (s₂ := S65536x1) (1 : Fin 2)
    (val_main_v9 (F := Ideal) x2) (val_main_v10 (F := Ideal)) _ (ix2 b (0 : Fin 2)) rfl (ix2 b (0 : Fin 1))
    (fun a => match a with | ⟨0, _⟩ => rfl | ⟨1, _⟩ => rfl)).trans ?_
  rw [val_main_v9_apply]
  exact congrArg _ (funext fun a => match a with | ⟨0, _⟩ => rfl)

/-- Column 1 of the start indices holds the constant 4. -/
theorem v11_at1 (x2 : IVec S65536 32) (b : Fin 65536) :
    val_main_v11 (F := Ideal) x2 (ix2 b (1 : Fin 2)) = 4#32 := by
  unfold val_main_v11
  refine (concatenate_pair_apply_right (t := S65536x2) (s₁ := S65536x1) (s₂ := S65536x1) (1 : Fin 2)
    (val_main_v9 (F := Ideal) x2) (val_main_v10 (F := Ideal)) _ (ix2 b (1 : Fin 2)) rfl rfl (ix2 b (0 : Fin 1))
    (fun a => match a with | ⟨0, _⟩ => fun _ => rfl | ⟨1, _⟩ => fun hne => absurd rfl hne) rfl).trans ?_
  rfl

/-! ## The gather: a 1 x 4 slice of the predictions at (row word, 4), each start clamped so that the slice fits -/

/-- The gather's dimension numbers: the start index is a (row, column) pair held along axis 1 of the start
    indices, the row axis is collapsed and the column axis is the result's offset axis. -/
abbrev G : GatherDims S19660800x8 S65536x2 S65536x4 := gather_S19660800x8_S65536x2_S65536x4_1_0_n_n_01_1_14

/-- Result index `(b, k)` reads component `c` of its start index at `(b, c)` of the start indices. -/
theorem siIdx_eq (b : Fin 65536) (k : Fin 4) (c : Fin 2) (hc : c.val < G.startIndexMap.length) :
    G.siIdx (ix2 b k) ⟨c.val, hc⟩ = ix2 b c := by
  funext a; refine Fin.ext ?_
  match a with
  | ⟨0, _⟩ => rfl
  | ⟨1, _⟩ => rfl

/-- The operand index of result index `(b, k)`: the row start clamped into `[0, 19660799]`, and the column
    start clamped into `[0, 4]` plus the offset `k`. -/
theorem operandIdx_eq {w : Nat} (idx : IVec S65536x2 w) (b : Fin 65536) (k : Fin 4) :
    G.operandIdx (ix2 b k) idx
      = ix2 (⟨min (idx (ix2 b (0 : Fin 2))).toInt.toNat 19660799, by omega⟩ : Fin 19660800)
            (⟨min (idx (ix2 b (1 : Fin 2))).toInt.toNat 4 + k.val, by omega⟩ : Fin 8) := by
  funext a; refine Fin.ext ?_
  match a with
  | ⟨0, _⟩ =>
    show G.start (ix2 b k) idx 0 + G.batchCoord (ix2 b k) 0 + G.offCoord (ix2 b k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ G.startIndexMap from by decide)]
    exact congrArg (fun v : BitVec w => min v.toInt.toNat 19660799) (congrArg idx (siIdx_eq b k 0 _))
  | ⟨1, _⟩ =>
    show G.start (ix2 b k) idx 1 + G.batchCoord (ix2 b k) 1 + G.offCoord (ix2 b k) 1 = _
    rw [GatherDims.batchCoord_eq_zero _ _ _ List.not_mem_nil]
    simp only [Nat.add_zero]
    have ho : G.offCoord (ix2 b k) 1 = k.val := by
      unfold GatherDims.offCoord
      rw [dif_pos (show (1 : Fin 2) ∈ G.sKept from by decide)]
      rfl
    rw [ho]
    unfold GatherDims.start
    rw [dif_pos (show (1 : Fin 2) ∈ G.startIndexMap from by decide)]
    exact congrArg (fun v : BitVec w => min v.toInt.toNat 4 + k.val) (congrArg idx (siIdx_eq b k 1 _))

/-- The gathered entry `(b, k)` is the prediction at row `300 b + p`, column `4 + k`. -/
theorem v12_apply (x0 : FVec Ideal S19660800x8 .f32) {x2 : IVec S65536 32} (h : Cert.Loss.InRange x2)
    (b : Fin 65536) (k : Fin 4) :
    val_main_v12 (F := Ideal) x0 x2 (ix2 b k) = x0 (ix2 (Cert.Loss.row b (x2 (ix1 b))) (Cert.Loss.col k)) := by
  show x0 (G.operandIdx (ix2 b k) (val_main_v11 (F := Ideal) x2)) = _
  rw [operandIdx_eq]
  refine congrArg x0 (congrArg₂ (ix2 (n0 := 19660800) (n1 := 8)) (Fin.ext ?_) (Fin.ext ?_))
  · show min (val_main_v11 (F := Ideal) x2 (ix2 b (0 : Fin 2))).toInt.toNat 19660799
      = (Cert.Loss.row b (x2 (ix1 b))).val
    rw [v11_at0, v8_eq h, rowWord_toInt h, Cert.Loss.row_val h, h.toInt_eq b]
    have := h.toNat_lt b
    have := b.isLt
    omega
  · show min (val_main_v11 (F := Ideal) x2 (ix2 b (1 : Fin 2))).toInt.toNat 4 + k.val = 4 + k.val
    rw [v11_at1, show (4#32 : BitVec 32).toInt.toNat = 4 from by decide]
    rfl

/-! ## The pointwise chain, the sum and the division -/

/-- One flattened cost is the entry cost of the gathered prediction and the true coordinate, at the index the
    flattening matches with it. -/
theorem v19_eq (x0 : FVec Ideal S19660800x8 .f32) (x1 : FVec Ideal S65536x4 .f32) (x2 : IVec S65536 32)
    (j : S262144.Idx) :
    val_main_v19 (F := Ideal) x0 x1 x2 j
      = Cert.Loss.term (F := Ideal)
          (val_main_v12 (F := Ideal) x0 x2 (Shape.reshapeEquiv Cert.ReferenceIdeal.Gen.shapeCasts_S65536x4_S262144 j))
          (x1 (Shape.reshapeEquiv Cert.ReferenceIdeal.Gen.shapeCasts_S65536x4_S262144 j)) := rfl

/-- The sum of the flattened costs is the double sum over images and coordinates. -/
theorem sum_v19 (x0 : FVec Ideal S19660800x8 .f32) (x1 : FVec Ideal S65536x4 .f32) {x2 : IVec S65536 32}
    (h : Cert.Loss.InRange x2) :
    ∑ j : S262144.Idx, val_main_v19 (F := Ideal) x0 x1 x2 j = Cert.Loss.total x0 x1 x2 := by
  calc ∑ j : S262144.Idx, val_main_v19 (F := Ideal) x0 x1 x2 j
      = ∑ j : S262144.Idx, (fun i : S65536x4.Idx =>
          Cert.Loss.term (F := Ideal) (val_main_v12 (F := Ideal) x0 x2 i) (x1 i))
            (Shape.reshapeEquiv Cert.ReferenceIdeal.Gen.shapeCasts_S65536x4_S262144 j) :=
        Finset.sum_congr rfl fun j _ => v19_eq x0 x1 x2 j
    _ = ∑ i : S65536x4.Idx, Cert.Loss.term (F := Ideal) (val_main_v12 (F := Ideal) x0 x2 i) (x1 i) :=
        Equiv.sum_comp (Shape.reshapeEquiv Cert.ReferenceIdeal.Gen.shapeCasts_S65536x4_S262144)
          (fun i : S65536x4.Idx => Cert.Loss.term (F := Ideal) (val_main_v12 (F := Ideal) x0 x2 i) (x1 i))
    _ = ∑ b : Fin 65536, ∑ k : Fin 4,
          Cert.Loss.term (F := Ideal) (val_main_v12 (F := Ideal) x0 x2 (ix2 b k)) (x1 (ix2 b k)) :=
        sum_idx2 _
    _ = Cert.Loss.total x0 x1 x2 := by
        unfold Cert.Loss.total
        exact Finset.sum_congr rfl fun b _ => Finset.sum_congr rfl fun k _ => by rw [v12_apply x0 h b k]

/-- For positions in `[0, 300)` the reference's result is the loss. -/
theorem ref_loss (x0 : FVec Ideal Cert.ReferenceIdeal.S19660800x8 .f32) (x1 : FVec Ideal Cert.ReferenceIdeal.S65536x4 .f32)
    (x2 : IVec Cert.ReferenceIdeal.S65536 32) (h : Cert.Loss.InRange x2) :
    Cert.ReferenceIdeal.Read.val_main_v21 (F := Ideal) x0 x1 x2 = Cert.Loss.loss x0 x1 x2 := by
  funext i
  rw [val_main_v21_apply, val_main_v20_apply, val_main_cst_3_apply, val_main_cst_4_apply, sum_v19 x0 x1 h]
  rfl

end Cert.RefLoss

end
-- ==== Proof.PreRange.lean ====
/-
  The printed precondition is the conjunction of four "all" tests; its last two say that every entry of the
  position array is at least 0 and below 300 as a signed word. Read back here: if the precondition evaluates
  to the one bit 1, every position lies in [0, 300).
-/
import proofs.«425943_j71459665871443_3_alg».proof.Proof.Gen.Pre_finite_inputs
import proofs.«425943_j71459665871443_3_alg».proof.Proof.Loss
import Idealize.ShloMosaic.Lib.ReduceAll
import Idealize.ShloMosaic.Lib.WordArith

noncomputable section

namespace Cert.PreRange

open Idealize.ShloMosaic Idealize.ShloMosaic.ValueIdx

/-- The scalar shape has one index. -/
instance : Subsingleton Cert.Pre_finite_inputs.S_.Idx := ⟨fun _ _ => funext fun d => d.elim0⟩

/-- The splat of the word `c` compared "position ≥ c" at every entry, all true: every position is at least `c`
    as a signed word. -/
theorem all_sge [Cert.Pre_finite_inputs.Facts] (a2 : IVec Cert.Pre_finite_inputs.S65536 32) (c : BitVec 32)
    (init : IVec Cert.Pre_finite_inputs.S_ 1)
    (e : Host.reduce IntOp.andi
        (cmpi .sge a2 (broadcastInDim Cert.Pre_finite_inputs.S65536 ![] Cert.Pre_finite_inputs.Facts.bcast_S_S65536
          (constantI Cert.Pre_finite_inputs.S_ 32 c)))
        init Cert.Pre_finite_inputs.Facts.reducesTo_S65536_S_d0 Cert.Pre_finite_inputs.Facts.h_S_ ix0 = 1#1)
    (b : Fin 65536) : c.toInt ≤ (a2 (ix1 b)).toInt := by
  have hb := Host.reduce_andi_all _ _ _ _ _ e (ix1 b)
  exact IntOp.cmpi_sge.1 hb

/-- The same for "position < c": every position is below `c` as a signed word. -/
theorem all_slt [Cert.Pre_finite_inputs.Facts] (a2 : IVec Cert.Pre_finite_inputs.S65536 32) (c : BitVec 32)
    (init : IVec Cert.Pre_finite_inputs.S_ 1)
    (e : Host.reduce IntOp.andi
        (cmpi .slt a2 (broadcastInDim Cert.Pre_finite_inputs.S65536 ![] Cert.Pre_finite_inputs.Facts.bcast_S_S65536
          (constantI Cert.Pre_finite_inputs.S_ 32 c)))
        init Cert.Pre_finite_inputs.Facts.reducesTo_S65536_S_d0 Cert.Pre_finite_inputs.Facts.h_S_ ix0 = 1#1)
    (b : Fin 65536) : (a2 (ix1 b)).toInt < c.toInt := by
  have hb := Host.reduce_andi_all _ _ _ _ _ e (ix1 b)
  exact IntOp.cmpi_slt.1 hb

/-- If the precondition holds of the three arrays, every position is in `[0, 300)`. -/
theorem inRange_of_pre {F : FTy → Type} [FloatOps F] [Cert.Pre_finite_inputs.Facts]
    (a0 : FVec F Cert.Pre_finite_inputs.S19660800x8 .f32) (a1 : FVec F Cert.Pre_finite_inputs.S65536x4 .f32)
    (a2 : IVec Cert.Pre_finite_inputs.S65536 32)
    (h : Cert.Pre_finite_inputs.fn (F := F) a0 a1 a2 = fun _ => 1#1) : Cert.Loss.InRange a2 := by
  have h0 := congrFun h ix0
  dsimp only [Cert.Pre_finite_inputs.fn, Cert.Pre_finite_inputs.fn_part1] at h0
  obtain ⟨h12, h15⟩ := IntOp.andi_eq_one.1 h0
  obtain ⟨_, h11⟩ := IntOp.andi_eq_one.1 h12
  intro b
  exact ⟨all_sge a2 0#32 _ h11 b, all_slt a2 300#32 _ h15 b⟩

end Cert.PreRange

end
-- ==== Proof.lean ====
/-
  The proof of `Cert.Claim`: the kernel and the reference compute one loss.

  `output` holds 300 proposals of 8 numbers for each of 65536 images, `central_pos` names one proposal per
  image, `gt_boxes` a box per image. Both programs return

      (1 / 262144) · ∑ over images b and coordinates k of  h(output[300·b + central_pos b, 4 + k] − gt_boxes[b, k]),
      h(d) = d² where |d| < 3, |d| elsewhere

  (`Cert.Loss.loss`). The reference gathers the four predicted coordinates of each image by the flat row
  number `central_pos b + 300·b` and sums the 262144 costs. The kernel views `output` as 65536 rows of
  2400 numbers, and in each row keeps, by a range mask on the column number, the four columns
  `8·p + 4 .. 8·p + 7` of the row's position `p`, pairing column `j` with coordinate `(j mod 8) − 4` of
  `gt_boxes`; it adds the masked row sums of 512 rows per grid point into a per-core accumulator over the
  64 steps of each of two cores, and the host adds the two cores' sums and divides. Over the extended
  reals sums regroup freely, so the two are equal once every position is a proposal of its image,
  `0 ≤ central_pos b < 300`, which the precondition states: then `8·p + 4 + k` is column `4 + k` of
  proposal `p`, and the flat row number neither wraps nor clamps.

  The modules: `Loss` (the common value), `MaskSum` (the mask and the select chain on words), `Pieces`,
  `StepValue`, `Acc`, `AccValue`, `Final`, `Blocks`, `Regroup`, `KernelTotal`, `KernelRun` (the kernel's
  side, from what each grid point leaves to the run's result), `RefLoss` (the reference's side),
  `PreRange` (the range read off the precondition).
-/
import proofs.«425943_j71459665871443_3_alg».proof.Defs
import proofs.«425943_j71459665871443_3_alg».proof.Proof.Gen.Kernel
import proofs.«425943_j71459665871443_3_alg».proof.Proof.Gen.Kernel.Frame
import proofs.«425943_j71459665871443_3_alg».proof.Proof.Gen.KernelIdeal
import proofs.«425943_j71459665871443_3_alg».proof.Proof.Gen.KernelIdeal.Frame
import proofs.«425943_j71459665871443_3_alg».proof.Proof.Gen.ReferenceIdeal
import proofs.«425943_j71459665871443_3_alg».proof.Proof.Gen.Pre_finite_inputs
import proofs.«425943_j71459665871443_3_alg».proof.Proof.Gen.ReferenceIdeal.Run
import proofs.«425943_j71459665871443_3_alg».proof.Proof.Gen.ReferenceIdeal.Read
import proofs.«425943_j71459665871443_3_alg».proof.Proof.KernelRun
import proofs.«425943_j71459665871443_3_alg».proof.Proof.RefLoss
import proofs.«425943_j71459665871443_3_alg».proof.Proof.PreRange
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with their result at the loss of the (agreeing) arguments. -/
theorem algebraic : Cert.algebraic_KernelIdeal_ReferenceIdeal := by
  intro m ρ m' ρ' hpre hagree
  have hR : ∀ c, Cert.Loss.InRange (Cert.KernelIdeal.Acc.argPos m c) :=
    fun c => Cert.PreRange.inRange_of_pre _ _ _ (hpre c)
  refine ⟨fun c => Cert.Loss.loss (Cert.KernelIdeal.Acc.argOut m c) (Cert.KernelIdeal.Acc.argGt m c)
    (Cert.KernelIdeal.Acc.argPos m c), Cert.KernelIdeal.Acc.kernel_run m ρ hR, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2.1, (hagree c).2.2]
  exact Cert.RefLoss.ref_loss _ _ _ (hR c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
